-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v13)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2048x256 : Shape := ⟨2, ![2048, 256]⟩
abbrev S256x66049 : Shape := ⟨2, ![256, 66049]⟩
abbrev S256 : Shape := ⟨1, ![256]⟩
abbrev S_ : Shape := ⟨0, ![]⟩

class Facts : Prop where
  bcast_S_S2048x256 : S_.BroadcastsInDim S2048x256 (![] : Fin 0 → Fin S2048x256.rank)
  reducesTo_S2048x256_S_d0_1 : S2048x256.ReducesTo [0, 1] S_
  h_S_ : 0 < S_.numel
  bcast_S_S256x66049 : S_.BroadcastsInDim S256x66049 (![] : Fin 0 → Fin S256x66049.rank)
  reducesTo_S256x66049_S_d0_1 : S256x66049.ReducesTo [0, 1] S_
  bcast_S_S256 : S_.BroadcastsInDim S256 (![] : Fin 0 → Fin S256.rank)
  reducesTo_S256_S_d0 : S256.ReducesTo [0] S_

variable [Facts]

def fn {F : FTy → Type} [FloatOps F] (main_arg0 : FVec F S2048x256 .f32) (main_arg1 : FVec F S256x66049 .f32) (main_arg2 : FVec F S256 .f32) : IVec S_ 1 :=
  let main_v0 : FVec F S2048x256 .f32 := Host.absf main_arg0
  let main_cst : FVec F S_ .f32 := constant S_ .f32 0x7F800000#32
  let main_v1 : FVec F S2048x256 .f32 := broadcastInDim S2048x256 ![] bcast_S_S2048x256 main_cst
  let main_v2 : IVec S2048x256 1 := cmpf .olt main_v0 main_v1
  let main_c : IVec S_ 1 := constantI S_ 1 1#1
  let main_v3 : IVec S_ 1 := (fun x v => Host.reduce IntOp.andi x v reducesTo_S2048x256_S_d0_1 h_S_) main_v2 main_c
  let main_v4 : FVec F S256x66049 .f32 := Host.absf main_arg1
  let main_cst_0 : FVec F S_ .f32 := constant S_ .f32 0x7F800000#32
  let main_v5 : FVec F S256x66049 .f32 := broadcastInDim S256x66049 ![] bcast_S_S256x66049 main_cst_0
  let main_v6 : IVec S256x66049 1 := cmpf .olt main_v4 main_v5
  let main_c_1 : IVec S_ 1 := constantI S_ 1 1#1
  let main_v7 : IVec S_ 1 := (fun x v => Host.reduce IntOp.andi x v reducesTo_S256x66049_S_d0_1 h_S_) main_v6 main_c_1
  let main_v8 : IVec S_ 1 := andi main_v3 main_v7
  let main_v9 : FVec F S256 .f32 := Host.absf main_arg2
  let main_cst_2 : FVec F S_ .f32 := constant S_ .f32 0x7F800000#32
  let main_v10 : FVec F S256 .f32 := broadcastInDim S256 ![] bcast_S_S256 main_cst_2
  let main_v11 : IVec S256 1 := cmpf .olt main_v9 main_v10
  let main_c_3 : IVec S_ 1 := constantI S_ 1 1#1
  let main_v12 : IVec S_ 1 := (fun x v => Host.reduce IntOp.andi x v reducesTo_S256_S_d0 h_S_) main_v11 main_c_3
  let main_v13 : IVec S_ 1 := andi main_v8 main_v12
  main_v13
-- ==== Kernel.lean ====
abbrev S2048x256 : Shape := ⟨2, ![2048, 256]⟩
abbrev S256x66049 : Shape := ⟨2, ![256, 66049]⟩
abbrev S256 : Shape := ⟨1, ![256]⟩
abbrev S256x257x257 : Shape := ⟨3, ![256, 257, 257]⟩
abbrev S256x1x1 : Shape := ⟨3, ![256, 1, 1]⟩
abbrev S256x1x256 : Shape := ⟨3, ![256, 1, 256]⟩
abbrev S256x256 : Shape := ⟨2, ![256, 256]⟩
abbrev S256x256x1 : Shape := ⟨3, ![256, 256, 1]⟩
abbrev S256x256x256 : Shape := ⟨3, ![256, 256, 256]⟩
abbrev S256x65536 : Shape := ⟨2, ![256, 65536]⟩
abbrev S512x256 : Shape := ⟨2, ![512, 256]⟩
abbrev S256x4096 : Shape := ⟨2, ![256, 4096]⟩
abbrev S512x4096 : Shape := ⟨2, ![512, 4096]⟩
abbrev S512x16x256 : Shape := ⟨3, ![512, 16, 256]⟩
abbrev S512x16 : Shape := ⟨2, ![512, 16]⟩
abbrev S512x16x1 : Shape := ⟨3, ![512, 16, 1]⟩
abbrev S1x256 : Shape := ⟨2, ![1, 256]⟩
abbrev S2048x16x16 : Shape := ⟨3, ![2048, 16, 16]⟩

abbrev nBuf : Space → Nat
  | .hbm => 17
  | .vmem => 9
  | .smem => 0
  | _ => 0

abbrev bufTy : (tb : Table) → Fin (tcTables nBuf tb) → BufTy
  | .hbm, ⟨0, _⟩ => ⟨S2048x256, .f32⟩
  | .hbm, ⟨1, _⟩ => ⟨S256x66049, .f32⟩
  | .hbm, ⟨2, _⟩ => ⟨S256, .f32⟩
  | .hbm, ⟨3, _⟩ => ⟨S256x257x257, .f32⟩
  | .hbm, ⟨4, _⟩ => ⟨S256x1x1, .f32⟩
  | .hbm, ⟨5, _⟩ => ⟨S256, .f32⟩
  | .hbm, ⟨6, _⟩ => ⟨S256x1x256, .f32⟩
  | .hbm, ⟨7, _⟩ => ⟨S256x256, .f32⟩
  | .hbm, ⟨8, _⟩ => ⟨S256x256x1, .f32⟩
  | .hbm, ⟨9, _⟩ => ⟨S256x256, .f32⟩
  | .hbm, ⟨10, _⟩ => ⟨S256x256, .f32⟩
  | .hbm, ⟨11, _⟩ => ⟨S256x256x256, .f32⟩
  | .hbm, ⟨12, _⟩ => ⟨S256x256x256, .f32⟩
  | .hbm, ⟨13, _⟩ => ⟨S256x65536, .f32⟩
  | .hbm, ⟨14, _⟩ => ⟨S256, .f32⟩
  | .hbm, ⟨15, _⟩ => ⟨S2048x256, .f32⟩
  | .hbm, ⟨16, _⟩ => ⟨S2048x16x16, .f32⟩
  | .local _ .vmem, ⟨0, _⟩ => ⟨S512x256, .f32⟩
  | .local _ .vmem, ⟨1, _⟩ => ⟨S512x256, .f32⟩
  | .local _ .vmem, ⟨2, _⟩ => ⟨S256x4096, .f32⟩
  | .local _ .vmem, ⟨3, _⟩ => ⟨S256x4096, .f32⟩
  | .local _ .vmem, ⟨4, _⟩ => ⟨S256x256, .f32⟩
  | .local _ .vmem, ⟨5, _⟩ => ⟨S256, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | _, _ => ⟨S2048x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c16_i32 : BitVec 32 := 16#32
  let v5 : BitVec 32 := Scalar.muli arg1 c16_i32
  v5
def k0_off1 (i : grid0.Coords) : Fin 2 → Nat :=
  let c0_3 : Index := 0#32
  let arg1 : BitVec 32 := BitVec.ofNat 32 (i 1).val
  let c16_i32 : BitVec 32 := 16#32
  let v5 : BitVec 32 := Scalar.muli arg1 c16_i32
  let v6 : BitVec 32 := v5
  let v7 : Index := Scalar.indexCast v6
  ![0, v7.toNat]
def k0_cond3 (i : grid0.Coords) : BitVec 1 :=
  let arg1 : BitVec 32 := BitVec.ofNat 32 (i 1).val
  let c15_i32 : BitVec 32 := 15#32
  let v19 : BitVec 1 := Scalar.cmpi .eq arg1 c15_i32
  let v20 : BitVec 32 := Scalar.extui v19
  let c0_i32_8 : BitVec 32 := 0#32
  let v21 : BitVec 1 := Scalar.cmpi .ne v20 c0_i32_8
  v21

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S512x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

class Facts₀ : Prop where
  shapeCasts_S256x66049_S256x257x257 : S256x66049.ShapeCasts S256x257x257
  slices_S256x257x257_S256x1x1_0_0_0 : S256x257x257.Slices ![0, 0, 0] S256x1x1
  shapeCasts_S256x1x1_S256 : S256x1x1.ShapeCasts S256
  slices_S256x257x257_S256x1x256_0_0_1 : S256x257x257.Slices ![0, 0, 1] S256x1x256
  shapeCasts_S256x1x256_S256x256 : S256x1x256.ShapeCasts S256x256
  slices_S256x257x257_S256x256x1_0_1_0 : S256x257x257.Slices ![0, 1, 0] S256x256x1
  shapeCasts_S256x256x1_S256x256 : S256x256x1.ShapeCasts S256x256
  slices_S256x257x257_S256x256x256_0_1_1 : S256x257x257.Slices ![0, 1, 1] S256x256x256
  transposes_S256x256x256_S256x256x256_2_1_0 : S256x256x256.Transposes [2, 1, 0] S256x256x256
  shapeCasts_S256x256x256_S256x65536 : S256x256x256.ShapeCasts S256x65536
  inb_S512x256_S512x256_0_0 : ∀ a, (![0, 0] : Fin 2 → Nat) a + S512x256.size a ≤ S512x256.size a
  h_S512x256 : 0 < S512x256.numel
  inb_S256x4096_S256x4096_0_0 : ∀ a, (![0, 0] : Fin 2 → Nat) a + S256x4096.size a ≤ S256x4096.size a
  h_S256x4096 : 0 < S256x4096.numel
  shapeCasts_S256x4096_S256x4096 : S256x4096.ShapeCasts S256x4096
  shapeCasts_S512x4096_S512x16x256 : S512x4096.ShapeCasts S512x16x256
  h_S512x16 : 0 < S512x16.numel
  shapeCasts_S512x16_S512x16x1 : S512x16.ShapeCasts S512x16x1
  broadcasts_S512x16x1_S512x16x256 : S512x16x1.Broadcasts S512x16x256
  reduces_S512x16x256_S512x256 : S512x16x256.Reduces [1] S512x256
  inb_S256x256_S256x256_0_0 : ∀ a, (![0, 0] : Fin 2 → Nat) a + S256x256.size a ≤ S256x256.size a
  h_S256x256 : 0 < S256x256.numel
  shapeCasts_S256x256_S256x256 : S256x256.ShapeCasts S256x256
  shapeCasts_S512x256_S512x256 : S512x256.ShapeCasts S512x256
  inb_S256_S256_0 : ∀ a, (![0] : Fin 1 → Nat) a + S256.size a ≤ S256.size a
  h_S256 : 0 < S256.numel
  shapeCasts_S256_S256 : S256.ShapeCasts S256
  shapeCasts_S256_S1x256 : S256.ShapeCasts S1x256
  broadcasts_S1x256_S512x256 : S1x256.Broadcasts S512x256
  shapeCasts_S2048x256_S2048x16x16 : S2048x256.ShapeCasts S2048x16x16
  dot_S512x256_S256x4096_S512x4096_1_0_0_1_n_n_wf : DotDims.WF S512x256 S256x4096 S512x4096 [1] [0] [0] [1] [] []
  dot_S512x256_S256x256_S512x256_1_1_0_0_n_n_wf : DotDims.WF S512x256 S256x256 S512x256 [1] [1] [0] [0] [] []
  hrank0 : 0 < grid0.rank
  k0_mult1_dvd : ∀ i : grid0.Coords, 16 ∣ (k0_mult1 i).toNat
  k0_off1_inb : ∀ i : grid0.Coords, ∀ a, (k0_off1 i) a + S512x16.size a ≤ S512x256.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S2048x256.size a
  hwx0_0 : ∀ i : grid0.Coords, EltTy.bits .f32 = 32 ∨ (Rect.block (s := S2048x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x4096.size a ≤ S256x65536.size a
  hwx0_1 : ∀ i : grid0.Coords, EltTy.bits .f32 = 32 ∨ (Rect.block (s := S256x65536) S256x4096.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S256.size a ≤ S256.size a
  hwx0_3 : ∀ i : grid0.Coords, EltTy.bits .f32 = 32 ∨ (Rect.block (s := S256) S256.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x256.size a ≤ S2048x256.size a
  hwx0_4 : ∀ i : grid0.Coords, EltTy.bits .f32 = 32 ∨ (Rect.block (s := S2048x256) S512x256.size (cc0_transform_4 i) (hinb0_4 i)).WholeWords (EltTy.packing .f32)

variable [Facts₀]

def dot_S512x256_S256x4096_S512x4096_1_0_0_1_n_n : DotDims S512x256 S256x4096 S512x4096 where
  lhsContracting := [1]
  rhsContracting := [0]
  lhsNonContracting := [0]
  rhsNonContracting := [1]
  lhsBatch := []
  rhsBatch := []
  wf := dot_S512x256_S256x4096_S512x4096_1_0_0_1_n_n_wf
def dot_S512x256_S256x256_S512x256_1_1_0_0_n_n : DotDims S512x256 S256x256 S512x256 where
  lhsContracting := [1]
  rhsContracting := [1]
  lhsNonContracting := [0]
  rhsNonContracting := [0]
  lhsBatch := []
  rhsBatch := []
  wf := dot_S512x256_S256x256_S512x256_1_1_0_0_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v10) S256x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v7) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v12) S512x256.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond3 i == 1#1) | ⟨_ + 5, h⟩ => absurd h (Nat.not_lt.2 (Nat.le_add_left _ _))

class Facts : Prop extends Facts₀ where

variable [Facts]
-- ==== ReferenceIdeal.lean ====
abbrev S2048x256 : Shape := ⟨2, ![2048, 256]⟩
abbrev S256x66049 : Shape := ⟨2, ![256, 66049]⟩
abbrev S256 : Shape := ⟨1, ![256]⟩
abbrev S_ : Shape := ⟨0, ![]⟩
abbrev S2048x1 : Shape := ⟨2, ![2048, 1]⟩
abbrev S2048x257 : Shape := ⟨2, ![2048, 257]⟩
abbrev S2048x257x1 : Shape := ⟨3, ![2048, 257, 1]⟩
abbrev S2048x1x257 : Shape := ⟨3, ![2048, 1, 257]⟩
abbrev S2048x257x257 : Shape := ⟨3, ![2048, 257, 257]⟩
abbrev S2048x66049 : Shape := ⟨2, ![2048, 66049]⟩
abbrev S66049x256 : Shape := ⟨2, ![66049, 256]⟩
abbrev S1x256 : Shape := ⟨2, ![1, 256]⟩
abbrev S2048x16x16 : Shape := ⟨3, ![2048, 16, 16]⟩

abbrev nBuf : Space → Nat
  | .hbm => 18
  | .vmem => 0
  | .smem => 0
  | _ => 0

abbrev bufTy : (tb : Table) → Fin (tcTables nBuf tb) → BufTy
  | .hbm, ⟨0, _⟩ => ⟨S2048x256, .f32⟩
  | .hbm, ⟨1, _⟩ => ⟨S256x66049, .f32⟩
  | .hbm, ⟨2, _⟩ => ⟨S256, .f32⟩
  | .hbm, ⟨3, _⟩ => ⟨S_, .f32⟩
  | .hbm, ⟨4, _⟩ => ⟨S2048x1, .f32⟩
  | .hbm, ⟨5, _⟩ => ⟨S2048x257, .f32⟩
  | .hbm, ⟨6, _⟩ => ⟨S2048x257x1, .f32⟩
  | .hbm, ⟨7, _⟩ => ⟨S2048x1x257, .f32⟩
  | .hbm, ⟨8, _⟩ => ⟨S2048x257x257, .f32⟩
  | .hbm, ⟨9, _⟩ => ⟨S2048x257x257, .f32⟩
  | .hbm, ⟨10, _⟩ => ⟨S2048x257x257, .f32⟩
  | .hbm, ⟨11, _⟩ => ⟨S2048x66049, .f32⟩
  | .hbm, ⟨12, _⟩ => ⟨S66049x256, .f32⟩
  | .hbm, ⟨13, _⟩ => ⟨S2048x256, .f32⟩
  | .hbm, ⟨14, _⟩ => ⟨S1x256, .f32⟩
  | .hbm, ⟨15, _⟩ => ⟨S2048x256, .f32⟩
  | .hbm, ⟨16, _⟩ => ⟨S2048x256, .f32⟩
  | .hbm, ⟨17, _⟩ => ⟨S2048x16x16, .f32⟩
  | _, _ => ⟨S2048x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩

abbrev nD : Nat := 1
abbrev τ : Topo := Topo.v7x

variable {F : FTy → Type} [FloatOps F]

class Facts₀ : Prop where
  bcast_S_S2048x1 : S_.BroadcastsInDim S2048x1 (![] : Fin 0 → Fin S2048x1.rank)
  concatenates_S2048x1_S2048x256_S2048x257_d1 : Shape.Concatenates [S2048x1, S2048x256] S2048x257 1
  bcast_S2048x257_S2048x257x1_0_1 : S2048x257.BroadcastsInDim S2048x257x1 (![0, 1] : Fin 2 → Fin S2048x257x1.rank)
  bcast_S2048x257_S2048x1x257_0_2 : S2048x257.BroadcastsInDim S2048x1x257 (![0, 2] : Fin 2 → Fin S2048x1x257.rank)
  bcast_S2048x257x1_S2048x257x257_0_1_2 : S2048x257x1.BroadcastsInDim S2048x257x257 (![0, 1, 2] : Fin 3 → Fin S2048x257x257.rank)
  bcast_S2048x1x257_S2048x257x257_0_1_2 : S2048x1x257.BroadcastsInDim S2048x257x257 (![0, 1, 2] : Fin 3 → Fin S2048x257x257.rank)
  shapeCasts_S2048x257x257_S2048x66049 : S2048x257x257.ShapeCasts S2048x66049
  transposes_S256x66049_S66049x256_1_0 : S256x66049.Transposes [1, 0] S66049x256
  bcast_S256_S1x256_1 : S256.BroadcastsInDim S1x256 (![1] : Fin 1 → Fin S1x256.rank)
  bcast_S1x256_S2048x256_0_1 : S1x256.BroadcastsInDim S2048x256 (![0, 1] : Fin 2 → Fin S2048x256.rank)
  shapeCasts_S2048x256_S2048x16x16 : S2048x256.ShapeCasts S2048x16x16
  dot_S2048x66049_S66049x256_S2048x256_1_0_0_1_n_n_wf : DotDims.WF S2048x66049 S66049x256 S2048x256 [1] [0] [0] [1] [] []

variable [Facts₀]

def dot_S2048x66049_S66049x256_S2048x256_1_0_0_1_n_n : DotDims S2048x66049 S66049x256 S2048x256 where
  lhsContracting := [1]
  rhsContracting := [0]
  lhsNonContracting := [0]
  rhsNonContracting := [1]
  lhsBatch := []
  rhsBatch := []
  wf := dot_S2048x66049_S66049x256_S2048x256_1_0_0_1_n_n_wf

class Facts : Prop extends Facts₀ where

variable [Facts]
-- ==== Proof.K.Cases.lean ====
/-
  The three control cases of the kernel body over its 4 × 16 grid, and where the result window is idle.

  A grid point `t < 64` has coordinates `(t / 16, t % 16)`: the batch block and the step `s = t % 16` along the
  first index of the quadratic form. The body branches three times on `s` alone: `s = 0` (the accumulator is set),
  `s > 0` (it is added to) and `s = 15` (the result block is written). So every point is in exactly one of three
  cases: first (`s = 0`), middle (`0 < s < 15`), last (`s = 15`). The result window's block is written back by the
  pipeline exactly at the last step of each batch block, and the body stores into it only there.
-/
import proofs.«143003_j31550829756606_1_alg».proof.Proof.Gen.Kernel.Frame
import proofs.«143003_j31550829756606_1_alg».proof.Proof.Gen.Kernel.Skeleton

noncomputable section

namespace Cert.Proof.K

open Cert.Kernel Cert.Kernel.Gen
open Idealize.ShloMosaic Idealize.ShloMosaic.TcCoe
open Idealize.SL Idealize.SL.Sem

variable {F : FTy → Type} [FloatOps F]

/-- "The step is zero", as the body computes it from the second grid coordinate. -/
abbrev cond1 (i : grid0.Coords) : Prop :=
  (Scalar.cmpi .ne (Scalar.extui (Scalar.cmpi .eq (BitVec.ofNat 32 (i 1).val) 0#32)) 0#32) = 1#1
/-- "The step is positive". -/
abbrev cond2 (i : grid0.Coords) : Prop :=
  (Scalar.cmpi .ne (Scalar.extui (Scalar.cmpi .sgt (BitVec.ofNat 32 (i 1).val) 0#32)) 0#32) = 1#1
/-- "The step is the last one". -/
abbrev cond3 (i : grid0.Coords) : Prop := k0_cond3 i = 1#1

/-- The three conditions in closed form over the 64 points (decided point by point). -/
theorem hcond1 : ∀ t : Fin cfg0.N, cond1 (grid0.coords t) ↔ t.val % 16 = 0 :=
  (by decide +kernel : ∀ t : Fin grid0.N, cond1 (grid0.coords t) ↔ t.val % 16 = 0)
theorem hcond2 : ∀ t : Fin cfg0.N, cond2 (grid0.coords t) ↔ t.val % 16 ≠ 0 :=
  (by decide +kernel : ∀ t : Fin grid0.N, cond2 (grid0.coords t) ↔ t.val % 16 ≠ 0)
theorem hcond3 : ∀ t : Fin cfg0.N, cond3 (grid0.coords t) ↔ t.val % 16 = 15 :=
  (by decide +kernel : ∀ t : Fin grid0.N, cond3 (grid0.coords t) ↔ t.val % 16 = 15)

/-- The input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The result window is idle, and not written back, away from the last step; live at the last step. -/
theorem idle4 : ∀ t : Fin cfg0.N, t.val % 16 ≠ 15 → cfg0.idle 4 (grid0.coords t) = true := by decide +kernel
theorem noFlush4 : ∀ t : Fin cfg0.N, t.val % 16 ≠ 15 → (cfg0.win 4).flush t = false := by decide +kernel
theorem live4 : ∀ t : Fin cfg0.N, t.val % 16 = 15 → cfg0.idle 4 (grid0.coords t) = false := by decide +kernel

end Cert.Proof.K

end
-- ==== Proof.K.Body.lean ====
/-
  The kernel body at one grid point, in each of its three control cases, as a statement about memory: run on whole
  staging buffers holding the row block `x0` (512 × 256), the weight block `x1` (256 × 4096), the linear weights
  `x2` (256 × 256) and the constant row `x3` (256), with the accumulator buffer at `a`,

  * at a FIRST step the accumulator is left at the linear form of `x0` against `x2` plus the step's part of the
    quadratic form (the body's second stored value, as a function of what it loaded), whatever it held before;
  * at a MIDDLE step it is left at `a` plus the step's part of the quadratic form;
  * at the LAST step likewise, and the result buffer is left at that sum plus the constant row;

  the inputs' buffers are left as found, and so is the result buffer away from the last step. The step's part of the
  quadratic form reads the sixteen columns of the row block that the step selects (`stepCols`).
-/
import proofs.«143003_j31550829756606_1_alg».proof.Proof.K.Cases
import Idealize.ShloMosaic.Lib.Pipeline.Value

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangle's offsets are zero. -/
theorem off0 : (![0, 0] : Fin 2 → ℕ) = fun _ => 0 := funext fun a => by fin_cases a <;> rfl
theorem off0' : (![0] : Fin 1 → ℕ) = fun _ => 0 := funext fun a => by fin_cases a; rfl

/-- One store through the whole-buffer rectangle covers every index. -/
theorem cover1 (w : Vec F S512x256 .f32) (y : S512x256.Idx) :
    ∃ pc ∈ ([⟨Rect.unit (s := S512x256) ![0, 0] S512x256.size inb_S512x256_S512x256_0_0, w⟩] : List (View.Piece (Elt F) S512x256 .f32)), y ∈ pc.1.set :=
  ⟨_, List.mem_singleton_self _, View.mem_set_unit_zero off0 inb_S512x256_S512x256_0_0 y⟩

/-- The sixteen columns `16 s, …, 16 s + 15` of a row block `x0`, where `s` is the step of the point `i`: what the
    body's second load of the row block reads. -/
abbrev stepCols (i : grid0.Coords) (x0 : Vec F S512x256 .f32) : Vec F S512x16 .f32 :=
  View.ld x0 (Rect.unit (s := S512x256) (k0_off1 i) S512x16.size (k0_off1_inb i))

/-- FIRST step: the accumulator is set. -/
theorem run_first (c : Dev nD) (i : grid0.Coords)
    (arg2 : Memref sig .tc .vmem S512x256 .f32) (harg2 : arg2.IsWhole) (arg3 : Memref sig .tc .vmem S256x4096 .f32) (harg3 : arg3.IsWhole)
    (arg4 : Memref sig .tc .vmem S256x256 .f32) (harg4 : arg4.IsWhole) (arg5 : Memref sig .tc .vmem S256 .f32) (harg5 : arg5.IsWhole)
    (arg6 : Memref sig .tc .vmem S512x256 .f32) (harg6 : arg6.IsWhole) (arg7 : Memref sig .tc .vmem S512x256 .f32) (harg7 : arg7.IsWhole)
    (hc1 : cond1 i) (hc2 : ¬cond2 i) (hc3 : ¬cond3 i)
    (x0 : Vec F S512x256 .f32) (x1 : Vec F S256x4096 .f32) (x2 : Vec F S256x256 .f32) (x3 : Vec F S256 .f32)
    (y a : Vec F S512x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare y ∗ (∃ a', owns (c : Thread nD τ) arg7 fullShare a')
        ∗ (iprop(owns (c : Thread nD τ) arg2 fullShare x0 ∗ owns (c : Thread nD τ) arg3 fullShare x1 ∗ owns (c : Thread nD τ) arg4 fullShare x2
        ∗ owns (c : Thread nD τ) arg5 fullShare x3
            ∗ owns (c : Thread nD τ) arg6 fullShare y ∗ owns (c : Thread nD τ) arg7 fullShare (k0_pay2 x0 x1 (stepCols i x0) x2)) -∗ K ⟨⟩))
      ⊢ wp frame (wpE (defs₀ (F := F)) Variants.none c none) Set.univ (cc0__cross_kernel i arg2 harg2 arg3 harg3 arg4 harg4 arg5 harg5 arg6 harg6 arg7 harg7) K := by
  simp only [cc0__cross_kernel_eq_skeleton]; unfold cc0__cross_kernel_skel
  unfold owns
  iintro ⟨⟨%f0, %hf0, H0⟩, ⟨%f1, %hf1, H1⟩, ⟨%f2, %hf2, H2⟩, ⟨%f3, %hf3, H3⟩, ⟨%f6, %hf6, H6⟩, ⟨%a7, %f7, %hf7, H7⟩, Hk⟩
  subst hf0 hf1 hf2 hf3 hf6 hf7
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists f6; isplitr; · ipureintro; rfl
    iexact H6
  iexists _; isplitr
  swap; · iexact H7
  ipureintro
  sl_unfold_words
  rw [View.read_writes_eq_canon _ _ _ (cover1 _), View.canon_unit_zero off0]
  simp only [View.readAt_eq_ld, View.ld_unit_zero (S := S512x256) off0, View.ld_unit_zero (S := S256x4096) off0, View.ld_unit_zero (S := S256x256) off0]
  rfl

/-- MIDDLE step: the accumulator is added to. -/
theorem run_mid (c : Dev nD) (i : grid0.Coords)
    (arg2 : Memref sig .tc .vmem S512x256 .f32) (harg2 : arg2.IsWhole) (arg3 : Memref sig .tc .vmem S256x4096 .f32) (harg3 : arg3.IsWhole)
    (arg4 : Memref sig .tc .vmem S256x256 .f32) (harg4 : arg4.IsWhole) (arg5 : Memref sig .tc .vmem S256 .f32) (harg5 : arg5.IsWhole)
    (arg6 : Memref sig .tc .vmem S512x256 .f32) (harg6 : arg6.IsWhole) (arg7 : Memref sig .tc .vmem S512x256 .f32) (harg7 : arg7.IsWhole)
    (hc1 : ¬cond1 i) (hc2 : cond2 i) (hc3 : ¬cond3 i)
    (x0 : Vec F S512x256 .f32) (x1 : Vec F S256x4096 .f32) (x2 : Vec F S256x256 .f32) (x3 : Vec F S256 .f32)
    (y a : Vec F S512x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare y ∗ owns (c : Thread nD τ) arg7 fullShare a
        ∗ (iprop(owns (c : Thread nD τ) arg2 fullShare x0 ∗ owns (c : Thread nD τ) arg3 fullShare x1 ∗ owns (c : Thread nD τ) arg4 fullShare x2
        ∗ owns (c : Thread nD τ) arg5 fullShare x3
            ∗ owns (c : Thread nD τ) arg6 fullShare y ∗ owns (c : Thread nD τ) arg7 fullShare (k0_pay3 x0 x1 (stepCols i x0) a)) -∗ K ⟨⟩))
      ⊢ wp frame (wpE (defs₀ (F := F)) Variants.none c none) Set.univ (cc0__cross_kernel i arg2 harg2 arg3 harg3 arg4 harg4 arg5 harg5 arg6 harg6 arg7 harg7) K := by
  simp only [cc0__cross_kernel_eq_skeleton]; unfold cc0__cross_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0 hf1 hf2 hf3 hf6 hf7
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists f6; isplitr; · ipureintro; rfl
    iexact H6
  iexists _; isplitr
  swap; · iexact H7
  ipureintro
  sl_unfold_words
  rw [View.read_writes_eq_canon _ _ _ (cover1 _), View.canon_unit_zero off0]
  simp only [View.readAt_eq_ld, View.ld_unit_zero (S := S512x256) off0, View.ld_unit_zero (S := S256x4096) off0, View.ld_unit_zero (S := S256x256) off0]
  rfl

/-- LAST step: the accumulator is added to, and the result block is written from it. -/
theorem run_last (c : Dev nD) (i : grid0.Coords)
    (arg2 : Memref sig .tc .vmem S512x256 .f32) (harg2 : arg2.IsWhole) (arg3 : Memref sig .tc .vmem S256x4096 .f32) (harg3 : arg3.IsWhole)
    (arg4 : Memref sig .tc .vmem S256x256 .f32) (harg4 : arg4.IsWhole) (arg5 : Memref sig .tc .vmem S256 .f32) (harg5 : arg5.IsWhole)
    (arg6 : Memref sig .tc .vmem S512x256 .f32) (harg6 : arg6.IsWhole) (arg7 : Memref sig .tc .vmem S512x256 .f32) (harg7 : arg7.IsWhole)
    (hc1 : ¬cond1 i) (hc2 : cond2 i) (hc3 : cond3 i)
    (x0 : Vec F S512x256 .f32) (x1 : Vec F S256x4096 .f32) (x2 : Vec F S256x256 .f32) (x3 : Vec F S256 .f32)
    (y a : Vec F S512x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ y', owns (c : Thread nD τ) arg6 fullShare y') ∗ owns (c : Thread nD τ) arg7 fullShare a
        ∗ (iprop(owns (c : Thread nD τ) arg2 fullShare x0 ∗ owns (c : Thread nD τ) arg3 fullShare x1 ∗ owns (c : Thread nD τ) arg4 fullShare x2
        ∗ owns (c : Thread nD τ) arg5 fullShare x3
            ∗ owns (c : Thread nD τ) arg6 fullShare (k0_pay4 (k0_pay3 x0 x1 (stepCols i x0) a) x3) ∗ owns (c : Thread nD τ) arg7 fullShare (k0_pay3 x0 x1 (stepCols i x0) a)) -∗ K ⟨⟩))
      ⊢ wp frame (wpE (defs₀ (F := F)) Variants.none c none) Set.univ (cc0__cross_kernel i arg2 harg2 arg3 harg3 arg4 harg4 arg5 harg5 arg6 harg6 arg7 harg7) K := by
  simp only [cc0__cross_kernel_eq_skeleton]; unfold cc0__cross_kernel_skel
  unfold owns
  iintro ⟨⟨%f0, %hf0, H0⟩, ⟨%f1, %hf1, H1⟩, ⟨%f2, %hf2, H2⟩, ⟨%f3, %hf3, H3⟩, ⟨%y6, %f6, %hf6, H6⟩, ⟨%f7, %hf7, H7⟩, Hk⟩
  subst hf0 hf1 hf2 hf3 hf6 hf7
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    rw [View.read_writes_eq_canon _ _ _ (cover1 _), View.canon_unit_zero off0]
    sl_unfold_words
    rw [View.readCov_unit_zero _ off0]
    simp only [View.readAt_eq_ld, View.ld_unit_zero (S := S512x256) off0, View.ld_unit_zero (S := S256x4096) off0, View.ld_unit_zero (S := S256) off0']
    rfl
  iexists _; isplitr
  swap; · iexact H7
  ipureintro
  sl_unfold_words
  rw [View.read_writes_eq_canon _ _ _ (cover1 _), View.canon_unit_zero off0]
  simp only [View.readAt_eq_ld, View.ld_unit_zero (S := S512x256) off0, View.ld_unit_zero (S := S256x4096) off0, View.ld_unit_zero (S := S256x256) off0]
  rfl

end Cert.Proof.K

end
-- ==== Proof.K.Dats.lean ====
/-
  The kernel's run over its grid: what the accumulator holds after each grid point, the pipeline's proof data, the body
  obligation at a generic point, the frame run of the whole program and its frame claim — for every float instance.

  Points are visited in order `t = 0, …, 63`; `t = 16 b + s` is step `s` of batch block `b`. The accumulator after point
  `t` (`accAt`) is, at a first step, the body's value for "linear form plus the step's part of the quadratic form" of the
  point's blocks; at any other step, the body's value for "what the point before left, plus the step's part". The result
  window's buffer matters only at last steps, where it holds the accumulator plus the constant row. Between points the
  accumulator's buffer is held at exactly `accAt` of the point before (before the first point: at anything).
-/
import proofs.«143003_j31550829756606_1_alg».proof.Proof.K.Body

set_option maxRecDepth 16384

noncomputable section

namespace Cert.Proof.K

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks of a point, and the memrefs the body is called with -/

/-- The row block, the weight block, the linear weights and the constant row the pipeline stages at point `t`, each at
    its literal type. -/
abbrev xb (c : Dev nD) (t : Fin cfg0.N) : Vec F S512x256 .f32 := iblk m c 0 t
abbrev wb (c : Dev nD) (t : Fin cfg0.N) : Vec F S256x4096 .f32 := iblk m c 1 t
abbrev lb (c : Dev nD) (t : Fin cfg0.N) : Vec F S256x256 .f32 := iblk m c 2 t
abbrev kb (c : Dev nD) (t : Fin cfg0.N) : Vec F S256 .f32 := iblk m c 3 t

/-- Each window's current staging memref at point `t`, as the pipeline passes it to the body, and its wholeness. -/
abbrev ms0 (t : Fin cfg0.N) : Memref sig .tc .vmem S512x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x256 .f32 := win0_4.stage (cfg0.slots t 4)
abbrev hs4 (t : Fin cfg0.N) : (ms4 t).IsWhole := hstage0_4 ((cfg0.slots t 4).cast nbuf0_4)
/-- The accumulator's buffer: a whole scoped buffer of the kernel's own. -/
abbrev scM : Memref sig .tc .vmem S512x256 .f32 := Memref.whole cc0_scratch0

/-! ## The accumulator after each point -/

/-- What the accumulator holds after the body at position `n`. -/
def accAt (c : Dev nD) : (n : ℕ) → n < cfg0.N → Vec F S512x256 .f32
  | 0, hn => k0_pay2 (xb m c ⟨0, hn⟩) (wb m c ⟨0, hn⟩) (stepCols (grid0.coords ⟨0, hn⟩) (xb m c ⟨0, hn⟩)) (lb m c ⟨0, hn⟩)
  | n + 1, hn =>
    if (n + 1) % 16 = 0 then
      k0_pay2 (xb m c ⟨n + 1, hn⟩) (wb m c ⟨n + 1, hn⟩) (stepCols (grid0.coords ⟨n + 1, hn⟩) (xb m c ⟨n + 1, hn⟩)) (lb m c ⟨n + 1, hn⟩)
    else
      k0_pay3 (xb m c ⟨n + 1, hn⟩) (wb m c ⟨n + 1, hn⟩) (stepCols (grid0.coords ⟨n + 1, hn⟩) (xb m c ⟨n + 1, hn⟩))
        (accAt c n (Nat.lt_of_succ_lt hn))

/-- At a first step: set from the point's blocks. -/
theorem accAt_first (c : Dev nD) (t : Fin cfg0.N) (h0 : t.val % 16 = 0) :
    accAt m c t.val t.isLt = k0_pay2 (xb m c t) (wb m c t) (stepCols (grid0.coords t) (xb m c t)) (lb m c t) := by
  obtain ⟨n, hn⟩ := t
  cases n with
  | zero => rfl
  | succ n => exact (if_pos h0).trans rfl

/-- At any other step: what the point before left, plus the step's part. -/
theorem accAt_next (c : Dev nD) (t : Fin cfg0.N) (h0 : ¬t.val % 16 = 0) :
    accAt m c t.val t.isLt = k0_pay3 (xb m c t) (wb m c t) (stepCols (grid0.coords t) (xb m c t))
      (accAt m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The invariant between points -/

/-- The invariant the launch hands the region (the kernel's own scoped buffers and the generator register), with the
    accumulator's buffer owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- Before position `n`: before the first point the accumulator's buffer at anything; afterwards at what the point
    before left. The generator register at some state throughout. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-- Whatever the position, the invariant yields the accumulator's buffer at SOME contents. -/
theorem PhiS_some (c : Dev nD) (n : ℕ) (h : n ≤ cfg0.N) :
    PhiS m c n h ⊢ iprop(iprop((∃ d, owns (c : Thread nD τ) scM fullShare d)) ∗ (∃ r, prngReg c r)) := by
  cases n with
  | zero => rw [PhiS_zero m c 0 h rfl, PhiA0_eq]
  | succ n =>
    rw [PhiS_succ]
    iintro ⟨HS, Hg⟩
    isplitl [HS]
    · iexists _; iexact HS
    iexact Hg

/-! ## The pipeline's proof data -/

/-- The proof data of the one pipeline on core `c`: the arrays as the region finds them; after the body at point `t` each
    input's buffer at its block and the result's at the accumulator plus the constant row; the invariant `PhiS`; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay4 (accAt m c t.val t.isLt) (kb m c t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = k0_pay4 (accAt m c t.val t.isLt) (kb m c t) := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) :
    (dats m 0 c).leavesExact 0 t = owns (c : Thread nD τ) (ms0 t) fullShare (iblk m c 0 t) := by
  unfold Dat.leavesExact; rw [live0 t, after0]
theorem leaves1 (c : Dev nD) (t : Fin cfg0.N) :
    (dats m 0 c).leavesExact 1 t = owns (c : Thread nD τ) (ms1 t) fullShare (iblk m c 1 t) := by
  unfold Dat.leavesExact; rw [live1 t, after1]
theorem leaves2 (c : Dev nD) (t : Fin cfg0.N) :
    (dats m 0 c).leavesExact 2 t = owns (c : Thread nD τ) (ms2 t) fullShare (iblk m c 2 t) := by
  unfold Dat.leavesExact; rw [live2 t, after2]
theorem leaves3 (c : Dev nD) (t : Fin cfg0.N) :
    (dats m 0 c).leavesExact 3 t = owns (c : Thread nD τ) (ms3 t) fullShare (iblk m c 3 t) := by
  unfold Dat.leavesExact; rw [live3 t, after3]
theorem leaves4_idle (c : Dev nD) (t : Fin cfg0.N) (h : t.val % 16 ≠ 15) :
    (dats m 0 c).leavesExact 4 t = iprop(∃ d, owns (c : Thread nD τ) (ms4 t) fullShare ((dats m 0 c).before 4 t d)) :=
  Dat.leavesExact_idle (dats m 0 c) 4 t (idle4 t h) (noFlush4 t h)
theorem leaves4_live (c : Dev nD) (t : Fin cfg0.N) (h : t.val % 16 = 15) :
    (dats m 0 c).leavesExact 4 t = owns (c : Thread nD τ) (ms4 t) fullShare (k0_pay4 (accAt m c t.val t.isLt) (kb m c t)) := by
  unfold Dat.leavesExact; rw [live4 t h, after4]

set_option maxHeartbeats 2000000 in
/-- The body at any point: the inputs' memrefs hold their blocks; the step decides the case; the invariant hands the
    body the accumulator's buffer at what the point before left (at anything before a first step) and takes it back at
    this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, PhiS_castSucc m c t]
  by_cases h0 : t.val % 16 = 0
  · -- a first step
    have h15 : t.val % 16 ≠ 15 := by omega
    rw [leaves4_idle m c t h15, accAt_first m c t h0]
    by_cases hz : t.val = 0
    · rw [PhiS_zero m c _ _ hz, PhiA0_eq]
      iintro ⟨⟨HS, Hg⟩, Ho, ⟨%d0, H0⟩, ⟨%d1, H1⟩, ⟨%d2, H2⟩, ⟨%d3, H3⟩, ⟨%d4, H4⟩⟩
      iapply (run_first c (grid0.coords t) (ms0 t) (hs0 t) (ms1 t) (hs1 t) (ms2 t) (hs2 t) (ms3 t) (hs3 t) (ms4 t) (hs4 t) scM (Memref.isWhole_whole _)
        ((hcond1 t).mpr h0) (fun h => (hcond2 t).mp h h0) (fun h => h15 ((hcond3 t).mp h))
        (xb m c t) (wb m c t) (lb m c t) (kb m c t) ((dats m 0 c).before 4 t d4) (xb m c t) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists d4; iexact H4
    · rw [PhiS_pos m c _ _ hz]
      iintro ⟨⟨HS, Hg⟩, Ho, ⟨%d0, H0⟩, ⟨%d1, H1⟩, ⟨%d2, H2⟩, ⟨%d3, H3⟩, ⟨%d4, H4⟩⟩
      iapply (run_first c (grid0.coords t) (ms0 t) (hs0 t) (ms1 t) (hs1 t) (ms2 t) (hs2 t) (ms3 t) (hs3 t) (ms4 t) (hs4 t) scM (Memref.isWhole_whole _)
        ((hcond1 t).mpr h0) (fun h => (hcond2 t).mp h h0) (fun h => h15 ((hcond3 t).mp h))
        (xb m c t) (wb m c t) (lb m c t) (kb m c t) ((dats m 0 c).before 4 t d4) (xb m c t) _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists d4; iexact H4
  · have hz : t.val ≠ 0 := fun h => h0 (by rw [h])
    rw [PhiS_pos m c _ _ hz, accAt_next m c t h0]
    by_cases h15 : t.val % 16 = 15
    · -- the last step
      rw [leaves4_live m c t h15, accAt_next m c t h0]
      iintro ⟨⟨HS, Hg⟩, Ho, ⟨%d0, H0⟩, ⟨%d1, H1⟩, ⟨%d2, H2⟩, ⟨%d3, H3⟩, ⟨%d4, H4⟩⟩
      iapply (run_last c (grid0.coords t) (ms0 t) (hs0 t) (ms1 t) (hs1 t) (ms2 t) (hs2 t) (ms3 t) (hs3 t) (ms4 t) (hs4 t) scM (Memref.isWhole_whole _)
        (fun h => h0 ((hcond1 t).mp h)) ((hcond2 t).mpr h0) ((hcond3 t).mpr h15)
        (xb m c t) (wb m c t) (lb m c t) (kb m c t) (xb m c t) (accAt m c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexact H4
    · -- a middle step
      rw [leaves4_idle m c t h15]
      iintro ⟨⟨HS, Hg⟩, Ho, ⟨%d0, H0⟩, ⟨%d1, H1⟩, ⟨%d2, H2⟩, ⟨%d3, H3⟩, ⟨%d4, H4⟩⟩
      iapply (run_mid c (grid0.coords t) (ms0 t) (hs0 t) (ms1 t) (hs1 t) (ms2 t) (hs2 t) (ms3 t) (hs3 t) (ms4 t) (hs4 t) scM (Memref.isWhole_whole _)
        (fun h => h0 ((hcond1 t).mp h)) ((hcond2 t).mpr h0) (fun h => h15 ((hcond3 t).mp h))
        (xb m c t) (wb m c t) (lb m c t) (kb m c t) ((dats m 0 c).before 4 t d4) (accAt m c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists d4; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the accumulator's named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  exact PhiS_some m c _ _

/-! ## The run and the frame -/

set_option backward.isDefEq.respectTransparency.types false in
/-- Every weakly fair execution of the program terminates, and every final state has every array of the pipeline at
    what the library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Proof.K

end
-- ==== Proof.KI.Cases.lean ====
/-
  The three control cases of the kernel body over its 4 × 16 grid, and where the result window is idle.

  A grid point `t < 64` has coordinates `(t / 16, t % 16)`: the batch block and the step `s = t % 16` along the
  first index of the quadratic form. The body branches three times on `s` alone: `s = 0` (the accumulator is set),
  `s > 0` (it is added to) and `s = 15` (the result block is written). So every point is in exactly one of three
  cases: first (`s = 0`), middle (`0 < s < 15`), last (`s = 15`). The result window's block is written back by the
  pipeline exactly at the last step of each batch block, and the body stores into it only there.
-/
import proofs.«143003_j31550829756606_1_alg».proof.Proof.Gen.KernelIdeal.Frame
import proofs.«143003_j31550829756606_1_alg».proof.Proof.Gen.KernelIdeal.Skeleton

noncomputable section

namespace Cert.Proof.KI

open Cert.KernelIdeal Cert.KernelIdeal.Gen
open Idealize.ShloMosaic Idealize.ShloMosaic.TcCoe
open Idealize.SL Idealize.SL.Sem

variable {F : FTy → Type} [FloatOps F]

/-- "The step is zero", as the body computes it from the second grid coordinate. -/
abbrev cond1 (i : grid0.Coords) : Prop :=
  (Scalar.cmpi .ne (Scalar.extui (Scalar.cmpi .eq (BitVec.ofNat 32 (i 1).val) 0#32)) 0#32) = 1#1
/-- "The step is positive". -/
abbrev cond2 (i : grid0.Coords) : Prop :=
  (Scalar.cmpi .ne (Scalar.extui (Scalar.cmpi .sgt (BitVec.ofNat 32 (i 1).val) 0#32)) 0#32) = 1#1
/-- "The step is the last one". -/
abbrev cond3 (i : grid0.Coords) : Prop := k0_cond3 i = 1#1

/-- The three conditions in closed form over the 64 points (decided point by point). -/
theorem hcond1 : ∀ t : Fin cfg0.N, cond1 (grid0.coords t) ↔ t.val % 16 = 0 :=
  (by decide +kernel : ∀ t : Fin grid0.N, cond1 (grid0.coords t) ↔ t.val % 16 = 0)
theorem hcond2 : ∀ t : Fin cfg0.N, cond2 (grid0.coords t) ↔ t.val % 16 ≠ 0 :=
  (by decide +kernel : ∀ t : Fin grid0.N, cond2 (grid0.coords t) ↔ t.val % 16 ≠ 0)
theorem hcond3 : ∀ t : Fin cfg0.N, cond3 (grid0.coords t) ↔ t.val % 16 = 15 :=
  (by decide +kernel : ∀ t : Fin grid0.N, cond3 (grid0.coords t) ↔ t.val % 16 = 15)

/-- The input windows are never idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
/-- The result window is idle, and not written back, away from the last step; live at the last step. -/
theorem idle4 : ∀ t : Fin cfg0.N, t.val % 16 ≠ 15 → cfg0.idle 4 (grid0.coords t) = true := by decide +kernel
theorem noFlush4 : ∀ t : Fin cfg0.N, t.val % 16 ≠ 15 → (cfg0.win 4).flush t = false := by decide +kernel
theorem live4 : ∀ t : Fin cfg0.N, t.val % 16 = 15 → cfg0.idle 4 (grid0.coords t) = false := by decide +kernel

end Cert.Proof.KI

end
-- ==== Proof.KI.Body.lean ====
/-
  The kernel body at one grid point, in each of its three control cases, as a statement about memory: run on whole
  staging buffers holding the row block `x0` (512 × 256), the weight block `x1` (256 × 4096), the linear weights
  `x2` (256 × 256) and the constant row `x3` (256), with the accumulator buffer at `a`,

  * at a FIRST step the accumulator is left at the linear form of `x0` against `x2` plus the step's part of the
    quadratic form (the body's second stored value, as a function of what it loaded), whatever it held before;
  * at a MIDDLE step it is left at `a` plus the step's part of the quadratic form;
  * at the LAST step likewise, and the result buffer is left at that sum plus the constant row;

  the inputs' buffers are left as found, and so is the result buffer away from the last step. The step's part of the
  quadratic form reads the sixteen columns of the row block that the step selects (`stepCols`).
-/
import proofs.«143003_j31550829756606_1_alg».proof.Proof.KI.Cases
import Idealize.ShloMosaic.Lib.Pipeline.Value

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The whole-buffer rectangle's offsets are zero. -/
theorem off0 : (![0, 0] : Fin 2 → ℕ) = fun _ => 0 := funext fun a => by fin_cases a <;> rfl
theorem off0' : (![0] : Fin 1 → ℕ) = fun _ => 0 := funext fun a => by fin_cases a; rfl

/-- One store through the whole-buffer rectangle covers every index. -/
theorem cover1 (w : Vec F S512x256 .f32) (y : S512x256.Idx) :
    ∃ pc ∈ ([⟨Rect.unit (s := S512x256) ![0, 0] S512x256.size inb_S512x256_S512x256_0_0, w⟩] : List (View.Piece (Elt F) S512x256 .f32)), y ∈ pc.1.set :=
  ⟨_, List.mem_singleton_self _, View.mem_set_unit_zero off0 inb_S512x256_S512x256_0_0 y⟩

/-- The sixteen columns `16 s, …, 16 s + 15` of a row block `x0`, where `s` is the step of the point `i`: what the
    body's second load of the row block reads. -/
abbrev stepCols (i : grid0.Coords) (x0 : Vec F S512x256 .f32) : Vec F S512x16 .f32 :=
  View.ld x0 (Rect.unit (s := S512x256) (k0_off1 i) S512x16.size (k0_off1_inb i))

/-- FIRST step: the accumulator is set. -/
theorem run_first (c : Dev nD) (i : grid0.Coords)
    (arg2 : Memref sig .tc .vmem S512x256 .f32) (harg2 : arg2.IsWhole) (arg3 : Memref sig .tc .vmem S256x4096 .f32) (harg3 : arg3.IsWhole)
    (arg4 : Memref sig .tc .vmem S256x256 .f32) (harg4 : arg4.IsWhole) (arg5 : Memref sig .tc .vmem S256 .f32) (harg5 : arg5.IsWhole)
    (arg6 : Memref sig .tc .vmem S512x256 .f32) (harg6 : arg6.IsWhole) (arg7 : Memref sig .tc .vmem S512x256 .f32) (harg7 : arg7.IsWhole)
    (hc1 : cond1 i) (hc2 : ¬cond2 i) (hc3 : ¬cond3 i)
    (x0 : Vec F S512x256 .f32) (x1 : Vec F S256x4096 .f32) (x2 : Vec F S256x256 .f32) (x3 : Vec F S256 .f32)
    (y a : Vec F S512x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare y ∗ (∃ a', owns (c : Thread nD τ) arg7 fullShare a')
        ∗ (iprop(owns (c : Thread nD τ) arg2 fullShare x0 ∗ owns (c : Thread nD τ) arg3 fullShare x1 ∗ owns (c : Thread nD τ) arg4 fullShare x2
        ∗ owns (c : Thread nD τ) arg5 fullShare x3
            ∗ owns (c : Thread nD τ) arg6 fullShare y ∗ owns (c : Thread nD τ) arg7 fullShare (k0_pay2 x0 x1 (stepCols i x0) x2)) -∗ K ⟨⟩))
      ⊢ wp frame (wpE (defs₀ (F := F)) Variants.none c none) Set.univ (cc0__cross_kernel i arg2 harg2 arg3 harg3 arg4 harg4 arg5 harg5 arg6 harg6 arg7 harg7) K := by
  simp only [cc0__cross_kernel_eq_skeleton]; unfold cc0__cross_kernel_skel
  unfold owns
  iintro ⟨⟨%f0, %hf0, H0⟩, ⟨%f1, %hf1, H1⟩, ⟨%f2, %hf2, H2⟩, ⟨%f3, %hf3, H3⟩, ⟨%f6, %hf6, H6⟩, ⟨%a7, %f7, %hf7, H7⟩, Hk⟩
  subst hf0 hf1 hf2 hf3 hf6 hf7
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists f6; isplitr; · ipureintro; rfl
    iexact H6
  iexists _; isplitr
  swap; · iexact H7
  ipureintro
  sl_unfold_words
  rw [View.read_writes_eq_canon _ _ _ (cover1 _), View.canon_unit_zero off0]
  simp only [View.readAt_eq_ld, View.ld_unit_zero (S := S512x256) off0, View.ld_unit_zero (S := S256x4096) off0, View.ld_unit_zero (S := S256x256) off0]
  rfl

/-- MIDDLE step: the accumulator is added to. -/
theorem run_mid (c : Dev nD) (i : grid0.Coords)
    (arg2 : Memref sig .tc .vmem S512x256 .f32) (harg2 : arg2.IsWhole) (arg3 : Memref sig .tc .vmem S256x4096 .f32) (harg3 : arg3.IsWhole)
    (arg4 : Memref sig .tc .vmem S256x256 .f32) (harg4 : arg4.IsWhole) (arg5 : Memref sig .tc .vmem S256 .f32) (harg5 : arg5.IsWhole)
    (arg6 : Memref sig .tc .vmem S512x256 .f32) (harg6 : arg6.IsWhole) (arg7 : Memref sig .tc .vmem S512x256 .f32) (harg7 : arg7.IsWhole)
    (hc1 : ¬cond1 i) (hc2 : cond2 i) (hc3 : ¬cond3 i)
    (x0 : Vec F S512x256 .f32) (x1 : Vec F S256x4096 .f32) (x2 : Vec F S256x256 .f32) (x3 : Vec F S256 .f32)
    (y a : Vec F S512x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ owns (c : Thread nD τ) arg6 fullShare y ∗ owns (c : Thread nD τ) arg7 fullShare a
        ∗ (iprop(owns (c : Thread nD τ) arg2 fullShare x0 ∗ owns (c : Thread nD τ) arg3 fullShare x1 ∗ owns (c : Thread nD τ) arg4 fullShare x2
        ∗ owns (c : Thread nD τ) arg5 fullShare x3
            ∗ owns (c : Thread nD τ) arg6 fullShare y ∗ owns (c : Thread nD τ) arg7 fullShare (k0_pay3 x0 x1 (stepCols i x0) a)) -∗ K ⟨⟩))
      ⊢ wp frame (wpE (defs₀ (F := F)) Variants.none c none) Set.univ (cc0__cross_kernel i arg2 harg2 arg3 harg3 arg4 harg4 arg5 harg5 arg6 harg6 arg7 harg7) K := by
  simp only [cc0__cross_kernel_eq_skeleton]; unfold cc0__cross_kernel_skel
  unfold owns
  iintro ⟨⟨%f0, %hf0, H0⟩, ⟨%f1, %hf1, H1⟩, ⟨%f2, %hf2, H2⟩, ⟨%f3, %hf3, H3⟩, ⟨%f6, %hf6, H6⟩, ⟨%f7, %hf7, H7⟩, Hk⟩
  subst hf0 hf1 hf2 hf3 hf6 hf7
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists f6; isplitr; · ipureintro; rfl
    iexact H6
  iexists _; isplitr
  swap; · iexact H7
  ipureintro
  sl_unfold_words
  rw [View.read_writes_eq_canon _ _ _ (cover1 _), View.canon_unit_zero off0]
  simp only [View.readAt_eq_ld, View.ld_unit_zero (S := S512x256) off0, View.ld_unit_zero (S := S256x4096) off0, View.ld_unit_zero (S := S256x256) off0]
  rfl

/-- LAST step: the accumulator is added to, and the result block is written from it. -/
theorem run_last (c : Dev nD) (i : grid0.Coords)
    (arg2 : Memref sig .tc .vmem S512x256 .f32) (harg2 : arg2.IsWhole) (arg3 : Memref sig .tc .vmem S256x4096 .f32) (harg3 : arg3.IsWhole)
    (arg4 : Memref sig .tc .vmem S256x256 .f32) (harg4 : arg4.IsWhole) (arg5 : Memref sig .tc .vmem S256 .f32) (harg5 : arg5.IsWhole)
    (arg6 : Memref sig .tc .vmem S512x256 .f32) (harg6 : arg6.IsWhole) (arg7 : Memref sig .tc .vmem S512x256 .f32) (harg7 : arg7.IsWhole)
    (hc1 : ¬cond1 i) (hc2 : cond2 i) (hc3 : cond3 i)
    (x0 : Vec F S512x256 .f32) (x1 : Vec F S256x4096 .f32) (x2 : Vec F S256x256 .f32) (x3 : Vec F S256 .f32)
    (y a : Vec F S512x256 .f32) (K : PUnit → sProp 𝕄) :
    iprop(owns (c : Thread nD τ) arg2 fullShare x0 ∗ owns (c : Thread nD τ) arg3 fullShare x1 ∗ owns (c : Thread nD τ) arg4 fullShare x2
        ∗ owns (c : Thread nD τ) arg5 fullShare x3 ∗ (∃ y', owns (c : Thread nD τ) arg6 fullShare y') ∗ owns (c : Thread nD τ) arg7 fullShare a
        ∗ (iprop(owns (c : Thread nD τ) arg2 fullShare x0 ∗ owns (c : Thread nD τ) arg3 fullShare x1 ∗ owns (c : Thread nD τ) arg4 fullShare x2
        ∗ owns (c : Thread nD τ) arg5 fullShare x3
            ∗ owns (c : Thread nD τ) arg6 fullShare (k0_pay4 (k0_pay3 x0 x1 (stepCols i x0) a) x3) ∗ owns (c : Thread nD τ) arg7 fullShare (k0_pay3 x0 x1 (stepCols i x0) a)) -∗ K ⟨⟩))
      ⊢ wp frame (wpE (defs₀ (F := F)) Variants.none c none) Set.univ (cc0__cross_kernel i arg2 harg2 arg3 harg3 arg4 harg4 arg5 harg5 arg6 harg6 arg7 harg7) K := by
  simp only [cc0__cross_kernel_eq_skeleton]; unfold cc0__cross_kernel_skel
  unfold owns
  iintro ⟨⟨%f0, %hf0, H0⟩, ⟨%f1, %hf1, H1⟩, ⟨%f2, %hf2, H2⟩, ⟨%f3, %hf3, H3⟩, ⟨%y6, %f6, %hf6, H6⟩, ⟨%f7, %hf7, H7⟩, Hk⟩
  subst hf0 hf1 hf2 hf3 hf6 hf7
  sl_exec (disch := first | exact hc1 | exact hc2 | exact hc3)
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H6]
  · iexists _; isplitr
    swap; · iexact H6
    ipureintro
    rw [View.read_writes_eq_canon _ _ _ (cover1 _), View.canon_unit_zero off0]
    sl_unfold_words
    rw [View.readCov_unit_zero _ off0]
    simp only [View.readAt_eq_ld, View.ld_unit_zero (S := S512x256) off0, View.ld_unit_zero (S := S256x4096) off0, View.ld_unit_zero (S := S256) off0']
    rfl
  iexists _; isplitr
  swap; · iexact H7
  ipureintro
  sl_unfold_words
  rw [View.read_writes_eq_canon _ _ _ (cover1 _), View.canon_unit_zero off0]
  simp only [View.readAt_eq_ld, View.ld_unit_zero (S := S512x256) off0, View.ld_unit_zero (S := S256x4096) off0, View.ld_unit_zero (S := S256x256) off0]
  rfl

end Cert.Proof.KI

end
-- ==== Proof.KI.Dats.lean ====
/-
  The kernel's run over its grid: what the accumulator holds after each grid point, the pipeline's proof data, the body
  obligation at a generic point, the frame run of the whole program and its frame claim — for every float instance.

  Points are visited in order `t = 0, …, 63`; `t = 16 b + s` is step `s` of batch block `b`. The accumulator after point
  `t` (`accAt`) is, at a first step, the body's value for "linear form plus the step's part of the quadratic form" of the
  point's blocks; at any other step, the body's value for "what the point before left, plus the step's part". The result
  window's buffer matters only at last steps, where it holds the accumulator plus the constant row. Between points the
  accumulator's buffer is held at exactly `accAt` of the point before (before the first point: at anything).
-/
import proofs.«143003_j31550829756606_1_alg».proof.Proof.KI.Body

set_option maxRecDepth 16384

noncomputable section

namespace Cert.Proof.KI

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The blocks of a point, and the memrefs the body is called with -/

/-- The row block, the weight block, the linear weights and the constant row the pipeline stages at point `t`, each at
    its literal type. -/
abbrev xb (c : Dev nD) (t : Fin cfg0.N) : Vec F S512x256 .f32 := iblk m c 0 t
abbrev wb (c : Dev nD) (t : Fin cfg0.N) : Vec F S256x4096 .f32 := iblk m c 1 t
abbrev lb (c : Dev nD) (t : Fin cfg0.N) : Vec F S256x256 .f32 := iblk m c 2 t
abbrev kb (c : Dev nD) (t : Fin cfg0.N) : Vec F S256 .f32 := iblk m c 3 t

/-- Each window's current staging memref at point `t`, as the pipeline passes it to the body, and its wholeness. -/
abbrev ms0 (t : Fin cfg0.N) : Memref sig .tc .vmem S512x256 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S256x4096 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S256x256 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S256 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x256 .f32 := win0_4.stage (cfg0.slots t 4)
abbrev hs4 (t : Fin cfg0.N) : (ms4 t).IsWhole := hstage0_4 ((cfg0.slots t 4).cast nbuf0_4)
/-- The accumulator's buffer: a whole scoped buffer of the kernel's own. -/
abbrev scM : Memref sig .tc .vmem S512x256 .f32 := Memref.whole cc0_scratch0

/-! ## The accumulator after each point -/

/-- What the accumulator holds after the body at position `n`. -/
def accAt (c : Dev nD) : (n : ℕ) → n < cfg0.N → Vec F S512x256 .f32
  | 0, hn => k0_pay2 (xb m c ⟨0, hn⟩) (wb m c ⟨0, hn⟩) (stepCols (grid0.coords ⟨0, hn⟩) (xb m c ⟨0, hn⟩)) (lb m c ⟨0, hn⟩)
  | n + 1, hn =>
    if (n + 1) % 16 = 0 then
      k0_pay2 (xb m c ⟨n + 1, hn⟩) (wb m c ⟨n + 1, hn⟩) (stepCols (grid0.coords ⟨n + 1, hn⟩) (xb m c ⟨n + 1, hn⟩)) (lb m c ⟨n + 1, hn⟩)
    else
      k0_pay3 (xb m c ⟨n + 1, hn⟩) (wb m c ⟨n + 1, hn⟩) (stepCols (grid0.coords ⟨n + 1, hn⟩) (xb m c ⟨n + 1, hn⟩))
        (accAt c n (Nat.lt_of_succ_lt hn))

/-- At a first step: set from the point's blocks. -/
theorem accAt_first (c : Dev nD) (t : Fin cfg0.N) (h0 : t.val % 16 = 0) :
    accAt m c t.val t.isLt = k0_pay2 (xb m c t) (wb m c t) (stepCols (grid0.coords t) (xb m c t)) (lb m c t) := by
  obtain ⟨n, hn⟩ := t
  cases n with
  | zero => rfl
  | succ n => exact (if_pos h0).trans rfl

/-- At any other step: what the point before left, plus the step's part. -/
theorem accAt_next (c : Dev nD) (t : Fin cfg0.N) (h0 : ¬t.val % 16 = 0) :
    accAt m c t.val t.isLt = k0_pay3 (xb m c t) (wb m c t) (stepCols (grid0.coords t) (xb m c t))
      (accAt m c (t.val - 1) (Nat.lt_of_le_of_lt (Nat.sub_le _ _) t.isLt)) := by
  obtain ⟨n, hn⟩ := t
  cases n with
  | zero => exact absurd (Nat.zero_mod _) h0
  | succ n => exact (if_neg h0).trans rfl

/-! ## The invariant between points -/

/-- The invariant the launch hands the region (the kernel's own scoped buffers and the generator register), with the
    accumulator's buffer owned at some contents. -/
theorem PhiA0_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-- Before position `n`: before the first point the accumulator's buffer at anything; afterwards at what the point
    before left. The generator register at some state throughout. -/
def PhiS (c : Dev nD) : (n : ℕ) → n ≤ cfg0.N → sProp 𝕄
  | 0, _ => Pipeline.ΦA spec0 c
  | n + 1, hn => iprop(iprop(owns (c : Thread nD τ) scM fullShare (accAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (accAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (accAt m c (n - 1) (by omega))) ∗ (∃ r, prngReg c r)) := by
  cases n with
  | zero => exact absurd rfl hz
  | succ n => rfl

/-- Whatever the position, the invariant yields the accumulator's buffer at SOME contents. -/
theorem PhiS_some (c : Dev nD) (n : ℕ) (h : n ≤ cfg0.N) :
    PhiS m c n h ⊢ iprop(iprop((∃ d, owns (c : Thread nD τ) scM fullShare d)) ∗ (∃ r, prngReg c r)) := by
  cases n with
  | zero => rw [PhiS_zero m c 0 h rfl, PhiA0_eq]
  | succ n =>
    rw [PhiS_succ]
    iintro ⟨HS, Hg⟩
    isplitl [HS]
    · iexists _; iexact HS
    iexact Hg

/-! ## The pipeline's proof data -/

/-- The proof data of the one pipeline on core `c`: the arrays as the region finds them; after the body at point `t` each
    input's buffer at its block and the result's at the accumulator plus the constant row; the invariant `PhiS`; nothing
    owed; full shares. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => k0_pay4 (accAt m c t.val t.isLt) (kb m c t)
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = k0_pay4 (accAt m c t.val t.isLt) (kb m c t) := by dsimp only [dats]

/-- Each input's current staging buffer holds its block at every point, fetched there or not. -/
theorem before0 (c : Dev nD) (t : Fin cfg0.N) (d) : (dats m 0 c).before 0 t d = iblk m c 0 t :=
  before0_0_of m (dats m 0 c) (A_eq m c 0) (after0 m c) t d
theorem before1 (c : Dev nD) (t : Fin cfg0.N) (d) : (dats m 0 c).before 1 t d = iblk m c 1 t :=
  before0_1_of m (dats m 0 c) (A_eq m c 1) (after1 m c) t d
theorem before2 (c : Dev nD) (t : Fin cfg0.N) (d) : (dats m 0 c).before 2 t d = iblk m c 2 t :=
  before0_2_of m (dats m 0 c) (A_eq m c 2) (after2 m c) t d
theorem before3 (c : Dev nD) (t : Fin cfg0.N) (d) : (dats m 0 c).before 3 t d = iblk m c 3 t :=
  before0_3_of m (dats m 0 c) (A_eq m c 3) (after3 m c) t d

/-! ## The body obligation, at a generic point -/

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t)

theorem leaves0 (c : Dev nD) (t : Fin cfg0.N) :
    (dats m 0 c).leavesExact 0 t = owns (c : Thread nD τ) (ms0 t) fullShare (iblk m c 0 t) := by
  unfold Dat.leavesExact; rw [live0 t, after0]
theorem leaves1 (c : Dev nD) (t : Fin cfg0.N) :
    (dats m 0 c).leavesExact 1 t = owns (c : Thread nD τ) (ms1 t) fullShare (iblk m c 1 t) := by
  unfold Dat.leavesExact; rw [live1 t, after1]
theorem leaves2 (c : Dev nD) (t : Fin cfg0.N) :
    (dats m 0 c).leavesExact 2 t = owns (c : Thread nD τ) (ms2 t) fullShare (iblk m c 2 t) := by
  unfold Dat.leavesExact; rw [live2 t, after2]
theorem leaves3 (c : Dev nD) (t : Fin cfg0.N) :
    (dats m 0 c).leavesExact 3 t = owns (c : Thread nD τ) (ms3 t) fullShare (iblk m c 3 t) := by
  unfold Dat.leavesExact; rw [live3 t, after3]
theorem leaves4_idle (c : Dev nD) (t : Fin cfg0.N) (h : t.val % 16 ≠ 15) :
    (dats m 0 c).leavesExact 4 t = iprop(∃ d, owns (c : Thread nD τ) (ms4 t) fullShare ((dats m 0 c).before 4 t d)) :=
  Dat.leavesExact_idle (dats m 0 c) 4 t (idle4 t h) (noFlush4 t h)
theorem leaves4_live (c : Dev nD) (t : Fin cfg0.N) (h : t.val % 16 = 15) :
    (dats m 0 c).leavesExact 4 t = owns (c : Thread nD τ) (ms4 t) fullShare (k0_pay4 (accAt m c t.val t.isLt) (kb m c t)) := by
  unfold Dat.leavesExact; rw [live4 t h, after4]

set_option maxHeartbeats 2000000 in
/-- The body at any point: the inputs' memrefs hold their blocks; the step decides the case; the invariant hands the
    body the accumulator's buffer at what the point before left (at anything before a first step) and takes it back at
    this point's contents; the core owes nothing throughout. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3]
  rw [show (dats m 0 c).owesAt () t.succ = (dats m 0 c).owesAt () t.castSucc from rfl]
  rw [show (dats m 0 c).Φ t.succ = PhiS m c (t.val + 1) t.isLt from rfl, PhiS_succ]
  rw [leaves0, leaves1, leaves2, leaves3, PhiS_castSucc m c t]
  by_cases h0 : t.val % 16 = 0
  · -- a first step
    have h15 : t.val % 16 ≠ 15 := by omega
    rw [leaves4_idle m c t h15, accAt_first m c t h0]
    by_cases hz : t.val = 0
    · rw [PhiS_zero m c _ _ hz, PhiA0_eq]
      iintro ⟨⟨HS, Hg⟩, Ho, ⟨%d0, H0⟩, ⟨%d1, H1⟩, ⟨%d2, H2⟩, ⟨%d3, H3⟩, ⟨%d4, H4⟩⟩
      iapply (run_first c (grid0.coords t) (ms0 t) (hs0 t) (ms1 t) (hs1 t) (ms2 t) (hs2 t) (ms3 t) (hs3 t) (ms4 t) (hs4 t) scM (Memref.isWhole_whole _)
        ((hcond1 t).mpr h0) (fun h => (hcond2 t).mp h h0) (fun h => h15 ((hcond3 t).mp h))
        (xb m c t) (wb m c t) (lb m c t) (kb m c t) ((dats m 0 c).before 4 t d4) (xb m c t) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists d4; iexact H4
    · rw [PhiS_pos m c _ _ hz]
      iintro ⟨⟨HS, Hg⟩, Ho, ⟨%d0, H0⟩, ⟨%d1, H1⟩, ⟨%d2, H2⟩, ⟨%d3, H3⟩, ⟨%d4, H4⟩⟩
      iapply (run_first c (grid0.coords t) (ms0 t) (hs0 t) (ms1 t) (hs1 t) (ms2 t) (hs2 t) (ms3 t) (hs3 t) (ms4 t) (hs4 t) scM (Memref.isWhole_whole _)
        ((hcond1 t).mpr h0) (fun h => (hcond2 t).mp h h0) (fun h => h15 ((hcond3 t).mp h))
        (xb m c t) (wb m c t) (lb m c t) (kb m c t) ((dats m 0 c).before 4 t d4) (xb m c t) _)
      isplitl [H0]; · iexact H0
      isplitl [H1]; · iexact H1
      isplitl [H2]; · iexact H2
      isplitl [H3]; · iexact H3
      isplitl [H4]; · iexact H4
      isplitl [HS]; · iexists _; iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists d4; iexact H4
  · have hz : t.val ≠ 0 := fun h => h0 (by rw [h])
    rw [PhiS_pos m c _ _ hz, accAt_next m c t h0]
    by_cases h15 : t.val % 16 = 15
    · -- the last step
      rw [leaves4_live m c t h15, accAt_next m c t h0]
      iintro ⟨⟨HS, Hg⟩, Ho, ⟨%d0, H0⟩, ⟨%d1, H1⟩, ⟨%d2, H2⟩, ⟨%d3, H3⟩, ⟨%d4, H4⟩⟩
      iapply (run_last c (grid0.coords t) (ms0 t) (hs0 t) (ms1 t) (hs1 t) (ms2 t) (hs2 t) (ms3 t) (hs3 t) (ms4 t) (hs4 t) scM (Memref.isWhole_whole _)
        (fun h => h0 ((hcond1 t).mp h)) ((hcond2 t).mpr h0) ((hcond3 t).mpr h15)
        (xb m c t) (wb m c t) (lb m c t) (kb m c t) (xb m c t) (accAt m c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexists _; iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexact H4
    · -- a middle step
      rw [leaves4_idle m c t h15]
      iintro ⟨⟨HS, Hg⟩, Ho, ⟨%d0, H0⟩, ⟨%d1, H1⟩, ⟨%d2, H2⟩, ⟨%d3, H3⟩, ⟨%d4, H4⟩⟩
      iapply (run_mid c (grid0.coords t) (ms0 t) (hs0 t) (ms1 t) (hs1 t) (ms2 t) (hs2 t) (ms3 t) (hs3 t) (ms4 t) (hs4 t) scM (Memref.isWhole_whole _)
        (fun h => h0 ((hcond1 t).mp h)) ((hcond2 t).mpr h0) (fun h => h15 ((hcond3 t).mp h))
        (xb m c t) (wb m c t) (lb m c t) (kb m c t) ((dats m 0 c).before 4 t d4) (accAt m c (t.val - 1) (Nat.lt_of_le_of_lt (Nat.sub_le _ _) t.isLt)) _)
      isplitl [H0]; · iexact H0
      isplitl [H1]; · iexact H1
      isplitl [H2]; · iexact H2
      isplitl [H3]; · iexact H3
      isplitl [H4]; · iexact H4
      isplitl [HS]; · iexact HS
      iintro ⟨H0, H1, H2, H3, H4, HS⟩
      isplitl [HS Hg]
      · isplitl [HS]; · iexact HS
        iexact Hg
      isplitl [Ho]; · iexact Ho
      isplitl [H0]; · iexact H0
      isplitl [H1]; · iexact H1
      isplitl [H2]; · iexact H2
      isplitl [H3]; · iexact H3
      iexists d4; iexact H4

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After the last point the invariant gives it back: the accumulator's named contents are forgotten. -/
theorem hout (c : Dev nD) : (dats m 0 c).Φ (Fin.last cfg0.N) ⊢ Pipeline.ΦA spec0 c := by
  rw [show (dats m 0 c).Φ (Fin.last cfg0.N) = PhiS m c (Fin.last cfg0.N).val (Nat.le_of_lt_succ (Fin.last cfg0.N).isLt) from rfl, PhiA0_eq]
  exact PhiS_some m c _ _

/-! ## The run and the frame -/

set_option backward.isDefEq.respectTransparency.types false in
/-- Every weakly fair execution of the program terminates, and every final state has every array of the pipeline at
    what the library computes from the proof data and every other unscoped buffer as the lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to the end, faults nowhere and leaves its argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Proof.KI

end
-- ==== Proof.KIArgs.lean ====
/-
  The idealized kernel program's three argument arrays — the rows `x` (2048 × 256), the weights `W` (256 × 66049) and
  the bias (256) — as the program is launched with them on a core, each named at its literal type so that arithmetic
  on their entries is arithmetic on extended reals.
-/
import proofs.«143003_j31550829756606_1_alg».proof.KernelIdeal
import Idealize.ShloMosaic.PureOps.Ideal

noncomputable section

namespace Cert.KIArgs

open Idealize.ShloMosaic Idealize.ShloMosaic.TcCoe Idealize.SL.Sem
open Cert.KernelIdeal

variable [Cert.KernelIdeal.Facts]
variable (m : (ℓ : Loc nD τ sig) → Buf (Elt Ideal) ℓ)

/-- The rows. -/
abbrev xA (c : Dev nD) : Vec Ideal S2048x256 .f32 := m ((c : Thread nD τ).loc main_arg0)
/-- The weights. -/
abbrev wA (c : Dev nD) : Vec Ideal S256x66049 .f32 := m ((c : Thread nD τ).loc main_arg1)
/-- The bias. -/
abbrev bA (c : Dev nD) : Vec Ideal S256 .f32 := m ((c : Thread nD τ).loc main_arg2)

end Cert.KIArgs

end
-- ==== Proof.KIWindows.lean ====
/-
  What three arrays that the idealized kernel program computes on the host before its pipelined region hold, entry by
  entry, in terms of the weights `W` (256 × 66049) and the bias (256).  With `Wr (o, p, q) = W (o, 257 p + q)` the
  weights read as 256 × 257 × 257:
    * the constant term    `(o) ↦ Wr (o, 0, 0) + bias o`;
    * the linear term      `(o, j) ↦ Wr (o, 0, j + 1) + Wr (o, j + 1, 0)`;
    * the quadratic term   `(j, i · 256 + o) ↦ Wr (o, i + 1, j + 1)`, the block `Wr[:, 1:, 1:]` with its axes reversed
      and the last two merged.
-/
import proofs.«143003_j31550829756606_1_alg».proof.Proof.KIArgs
import proofs.«143003_j31550829756606_1_alg».proof.Proof.Gen.KernelIdeal.Frame
import Idealize.ShloMosaic.Lib.ValueIdx
import Idealize.ShloMosaic.Lib.Pipeline.Value
import Idealize.ShloMosaic.Lib.ValueLayout
import Idealize.ShloMosaic.Lib.StableHlo.Run

noncomputable section

namespace Cert.KIWindows

open Idealize.ShloMosaic Idealize.ShloMosaic.TcCoe Idealize.SL.Sem Idealize.ShloMosaic.ValueIdx
open Cert.KernelIdeal Cert.KernelIdeal.Gen Cert.KIArgs

variable [Cert.KernelIdeal.Facts]
variable (m : (ℓ : Loc nD τ sig) → Buf (Elt Ideal) ℓ)

/-! ## The layout operations of the host lines, each read at an index -/

section Layout
variable {α : Type}

/-- The weights reshaped to 256 × 257 × 257: entry `(o, p, q)` is the weight at column `257 p + q` of row `o`. -/
theorem reshapeW_apply (w : S256x66049.Idx → α) (o : Fin 256) (p q : Fin 257) :
    shapeCast S256x257x257 w shapeCasts_S256x66049_S256x257x257 (ix3 o p q)
      = w (ix2 o ⟨p.val * 257 + q.val, by have := p.isLt; have := q.isLt; omega⟩) := by
  refine shapeCast_apply w shapeCasts_S256x66049_S256x257x257 (ix3 o p q) _ ?_
  rewrite [Shape.rowMajor_val_two, Shape.rowMajor_val_three]
  show o.val * 66049 + (p.val * 257 + q.val) = (o.val * 257 + p.val) * 257 + q.val
  omega

/-- The slice `[:, 0:1, 0:1]`. -/
theorem slice00_apply (y : S256x257x257.Idx → α) (o : Fin 256) (a b : Fin 1) :
    extractStridedSlice S256x1x1 ![0, 0, 0] y slices_S256x257x257_S256x1x1_0_0_0 (ix3 o a b)
      = y (ix3 o ⟨0, by decide⟩ ⟨0, by decide⟩) := by
  refine extractStridedSlice_apply ![0, 0, 0] y slices_S256x257x257_S256x1x1_0_0_0 (ix3 o a b) _ fun d => ?_
  match d with
  | ⟨0, _⟩ => show o.val = 0 + o.val; omega
  | ⟨1, _⟩ => show 0 = 0 + a.val; have := a.isLt; omega
  | ⟨2, _⟩ => show 0 = 0 + b.val; have := b.isLt; omega

/-- 256 × 1 × 1 read as 256. -/
theorem drop11_apply (z : S256x1x1.Idx → α) (o : Fin 256) :
    shapeCast S256 z shapeCasts_S256x1x1_S256 (ix1 o) = z (ix3 o 0 0) := by
  refine shapeCast_apply z shapeCasts_S256x1x1_S256 (ix1 o) _ ?_
  rewrite [Shape.rowMajor_val_three, Shape.rowMajor_val_one]
  show (o.val * 1 + 0) * 1 + 0 = o.val
  omega

/-- The slice `[:, 0:1, 1:257]`. -/
theorem slice01_apply (y : S256x257x257.Idx → α) (o : Fin 256) (a : Fin 1) (j : Fin 256) :
    extractStridedSlice S256x1x256 ![0, 0, 1] y slices_S256x257x257_S256x1x256_0_0_1 (ix3 o a j)
      = y (ix3 o ⟨0, by decide⟩ ⟨j.val + 1, by have := j.isLt; omega⟩) := by
  refine extractStridedSlice_apply ![0, 0, 1] y slices_S256x257x257_S256x1x256_0_0_1 (ix3 o a j) _ fun d => ?_
  match d with
  | ⟨0, _⟩ => show o.val = 0 + o.val; omega
  | ⟨1, _⟩ => show 0 = 0 + a.val; have := a.isLt; omega
  | ⟨2, _⟩ => show j.val + 1 = 1 + j.val; omega

/-- 256 × 1 × 256 read as 256 × 256. -/
theorem dropMid_apply (z : S256x1x256.Idx → α) (o j : Fin 256) :
    shapeCast S256x256 z shapeCasts_S256x1x256_S256x256 (ix2 o j) = z (ix3 o 0 j) := by
  refine shapeCast_apply z shapeCasts_S256x1x256_S256x256 (ix2 o j) _ ?_
  rewrite [Shape.rowMajor_val_three, Shape.rowMajor_val_two]
  show (o.val * 1 + 0) * 256 + j.val = o.val * 256 + j.val
  omega

/-- The slice `[:, 1:257, 0:1]`. -/
theorem slice10_apply (y : S256x257x257.Idx → α) (o i : Fin 256) (b : Fin 1) :
    extractStridedSlice S256x256x1 ![0, 1, 0] y slices_S256x257x257_S256x256x1_0_1_0 (ix3 o i b)
      = y (ix3 o ⟨i.val + 1, by have := i.isLt; omega⟩ ⟨0, by decide⟩) := by
  refine extractStridedSlice_apply ![0, 1, 0] y slices_S256x257x257_S256x256x1_0_1_0 (ix3 o i b) _ fun d => ?_
  match d with
  | ⟨0, _⟩ => show o.val = 0 + o.val; omega
  | ⟨1, _⟩ => show i.val + 1 = 1 + i.val; omega
  | ⟨2, _⟩ => show 0 = 0 + b.val; have := b.isLt; omega

/-- 256 × 256 × 1 read as 256 × 256. -/
theorem dropLast_apply (z : S256x256x1.Idx → α) (o i : Fin 256) :
    shapeCast S256x256 z shapeCasts_S256x256x1_S256x256 (ix2 o i) = z (ix3 o i 0) := by
  refine shapeCast_apply z shapeCasts_S256x256x1_S256x256 (ix2 o i) _ ?_
  rewrite [Shape.rowMajor_val_three, Shape.rowMajor_val_two]
  show (o.val * 256 + i.val) * 1 + 0 = o.val * 256 + i.val
  omega

/-- The slice `[:, 1:257, 1:257]`. -/
theorem slice11_apply (y : S256x257x257.Idx → α) (o i j : Fin 256) :
    extractStridedSlice S256x256x256 ![0, 1, 1] y slices_S256x257x257_S256x256x256_0_1_1 (ix3 o i j)
      = y (ix3 o ⟨i.val + 1, by have := i.isLt; omega⟩ ⟨j.val + 1, by have := j.isLt; omega⟩) := by
  refine extractStridedSlice_apply ![0, 1, 1] y slices_S256x257x257_S256x256x256_0_1_1 (ix3 o i j) _ fun d => ?_
  match d with
  | ⟨0, _⟩ => show o.val = 0 + o.val; omega
  | ⟨1, _⟩ => show i.val + 1 = 1 + i.val; omega
  | ⟨2, _⟩ => show j.val + 1 = 1 + j.val; omega

/-- The transpose by `[2, 1, 0]`: entry `(a, b, c)` is the operand's `(c, b, a)`. -/
theorem transpose210_apply (x : S256x256x256.Idx → α) (a b c : Fin 256) :
    transpose S256x256x256 [2, 1, 0] x transposes_S256x256x256_S256x256x256_2_1_0 (ix3 a b c) = x (ix3 c b a) :=
  transpose_apply [2, 1, 0] x transposes_S256x256x256_S256x256x256_2_1_0 (ix3 a b c) (ix3 c b a) (fun d => match d with
    | ⟨0, _⟩ => rfl
    | ⟨1, _⟩ => rfl
    | ⟨2, _⟩ => rfl)

/-- 256 × 256 × 256 read as 256 × 65536: column `col` is the pair `(col / 256, col % 256)`. -/
theorem flatten_apply (z : S256x256x256.Idx → α) (j : Fin 256) (col : Fin 65536) :
    shapeCast S256x65536 z shapeCasts_S256x256x256_S256x65536 (ix2 j col)
      = z (ix3 j ⟨col.val / 256, by have := col.isLt; omega⟩ ⟨col.val % 256, Nat.mod_lt _ (by decide)⟩) := by
  refine shapeCast_apply z shapeCasts_S256x256x256_S256x65536 (ix2 j col) _ ?_
  rewrite [Shape.rowMajor_val_three, Shape.rowMajor_val_two]
  show (j.val * 256 + col.val / 256) * 256 + col.val % 256 = j.val * 65536 + col.val
  omega

end Layout

/-! ## The three arrays as terms of the arguments -/

/-- `Wr[:, 0, 0] + bias`. -/
theorem V_v11_eq (c : Dev nD) :
    (V m c main_v11 : S256.Idx → EReal)
      = addf (F := Ideal) (φ := .f32)
          (shapeCast S256
            (extractStridedSlice S256x1x1 ![0, 0, 0]
              (shapeCast S256x257x257 (wA m c) shapeCasts_S256x66049_S256x257x257)
              slices_S256x257x257_S256x1x1_0_0_0)
            shapeCasts_S256x1x1_S256)
          (bA m c) := by
  show StableHlo.after hostOps0 (fun b => m (c, b)) (Proc.devRef .tc main_v11) = _
  after_results
  rfl

/-- `Wr[:, 0, 1:] + Wr[:, 1:, 0]`. -/
theorem V_v7_eq (c : Dev nD) :
    (V m c main_v7 : S256x256.Idx → EReal)
      = addf (F := Ideal) (φ := .f32)
          (shapeCast S256x256
            (extractStridedSlice S256x1x256 ![0, 0, 1]
              (shapeCast S256x257x257 (wA m c) shapeCasts_S256x66049_S256x257x257)
              slices_S256x257x257_S256x1x256_0_0_1)
            shapeCasts_S256x1x256_S256x256)
          (shapeCast S256x256
            (extractStridedSlice S256x256x1 ![0, 1, 0]
              (shapeCast S256x257x257 (wA m c) shapeCasts_S256x66049_S256x257x257)
              slices_S256x257x257_S256x256x1_0_1_0)
            shapeCasts_S256x256x1_S256x256) := by
  show StableHlo.after hostOps0 (fun b => m (c, b)) (Proc.devRef .tc main_v7) = _
  after_results
  rfl

/-- `Wr[:, 1:, 1:]` transposed by `[2, 1, 0]` and read as 256 × 65536. -/
theorem V_v10_eq (c : Dev nD) :
    (V m c main_v10 : S256x65536.Idx → EReal)
      = shapeCast S256x65536
          (transpose S256x256x256 [2, 1, 0]
            (extractStridedSlice S256x256x256 ![0, 1, 1]
              (shapeCast S256x257x257 (wA m c) shapeCasts_S256x66049_S256x257x257)
              slices_S256x257x257_S256x256x256_0_1_1)
            transposes_S256x256x256_S256x256x256_2_1_0)
          shapeCasts_S256x256x256_S256x65536 := by
  show StableHlo.after hostOps0 (fun b => m (c, b)) (Proc.devRef .tc main_v10) = _
  after_results
  rfl

/-! ## The three arrays read at an index -/

theorem V_v10_apply (c : Dev nD) (j : Fin 256) (col : Fin 65536) :
    (V m c main_v10 : S256x65536.Idx → EReal) (ix2 j col)
      = wA m c (ix2 ⟨col.val % 256, Nat.mod_lt _ (by decide)⟩ ⟨(col.val / 256 + 1) * 257 + (j.val + 1), by have := col.isLt; have := j.isLt; omega⟩) := by
  rw [V_v10_eq, flatten_apply, transpose210_apply, slice11_apply, reshapeW_apply]

theorem V_v7_apply (c : Dev nD) (o j : Fin 256) :
    (V m c main_v7 : S256x256.Idx → EReal) (ix2 o j)
        = wA m c (ix2 o ⟨j.val + 1, by have := j.isLt; omega⟩) + wA m c (ix2 o ⟨(j.val + 1) * 257, by have := j.isLt; omega⟩) := by
  rw [V_v7_eq, addf_apply, dropMid_apply, slice01_apply, reshapeW_apply, dropLast_apply, slice10_apply, reshapeW_apply]
  refine congrArg₂ (· + ·) (congrArg (wA m c) (congrArg (ix2 o) (Fin.ext ?_))) (congrArg (wA m c) (congrArg (ix2 o) (Fin.ext ?_)))
  · show 0 * 257 + (j.val + 1) = j.val + 1; omega
  · show (j.val + 1) * 257 + 0 = (j.val + 1) * 257; omega

theorem V_v11_apply (c : Dev nD) (o : Fin 256) :
    (V m c main_v11 : S256.Idx → EReal) (ix1 o) = wA m c (ix2 o ⟨0, by decide⟩) + bA m c (ix1 o) := by
  rw [V_v11_eq, addf_apply, drop11_apply, slice00_apply, reshapeW_apply]
  rfl

end Cert.KIWindows

end
-- ==== Proof.KIPayload.lean ====
/-
  The four payloads of the kernel body at the ideal values (extended reals), read at an index (r, o) of the
  512 × 256 block.

  Payload 1 is one sixteen-row part of the quadratic form. The rows x (512 × 256) times the weight block w
  (256 × 4096) give y (r, c) = ∑ j, x (r, j) * w (j, c); the 4096 columns are split as c = 256 i' + o into
  512 × 16 × 256; the sixteen entries x' (r, i') of the current column slice of x multiply along the middle axis;
  the middle axis is summed. Payload 2 adds the linear form ∑ j, x (r, j) * l (o, j) (both operands contracted on
  their second axis); payload 3 adds the running accumulator; payload 4 adds the bias, a row repeated 512 times.
-/
import proofs.«143003_j31550829756606_1_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws

noncomputable section

namespace Cert.KIPayload

open Idealize.ShloMosaic Idealize.ShloMosaic.TcCoe Idealize.SL.Sem Idealize.ShloMosaic.ValueIdx
open Cert.KernelIdeal Cert.KernelIdeal.Gen
open scoped BigOperators

variable [Cert.KernelIdeal.Facts]

/-! ## The product with the 256 × 4096 weight block: left axis 1 against right axis 0 -/

/-- The left operand's row is the result's row. -/
theorem lhsA_0 (i : S512x4096.Idx) (q : dot_S512x256_S256x4096_S512x4096_1_0_0_1_n_n.contr.Idx) :
    (dot_S512x256_S256x4096_S512x4096_1_0_0_1_n_n.lhsIdx i q 0).val = (i 0).val := by
  unfold DotDims.lhsIdx
  rw [dif_neg (show ¬(0 : Fin S512x256.rank) ∈ dot_S512x256_S256x4096_S512x4096_1_0_0_1_n_n.lhsBatch by decide), dif_pos (show (0 : Fin S512x256.rank) ∈ dot_S512x256_S256x4096_S512x4096_1_0_0_1_n_n.lhsNonContracting by decide)]
  rfl
/-- The left operand's column is the contraction coordinate. -/
theorem lhsA_1 (i : S512x4096.Idx) (q : dot_S512x256_S256x4096_S512x4096_1_0_0_1_n_n.contr.Idx) :
    (dot_S512x256_S256x4096_S512x4096_1_0_0_1_n_n.lhsIdx i q 1).val = (q ⟨0, by decide⟩).val :=
  dot_S512x256_S256x4096_S512x4096_1_0_0_1_n_n.lhsIdx_val_of_single rfl i q
/-- The right operand's row is the contraction coordinate. -/
theorem rhsA_0 (i : S512x4096.Idx) (q : dot_S512x256_S256x4096_S512x4096_1_0_0_1_n_n.contr.Idx) :
    (dot_S512x256_S256x4096_S512x4096_1_0_0_1_n_n.rhsIdx i q 0).val = (q ⟨0, by decide⟩).val :=
  dot_S512x256_S256x4096_S512x4096_1_0_0_1_n_n.rhsIdx_val_of_single rfl i q
/-- The right operand's column is the result's column. -/
theorem rhsA_1 (i : S512x4096.Idx) (q : dot_S512x256_S256x4096_S512x4096_1_0_0_1_n_n.contr.Idx) :
    (dot_S512x256_S256x4096_S512x4096_1_0_0_1_n_n.rhsIdx i q 1).val = (i 1).val := by
  unfold DotDims.rhsIdx
  rw [dif_neg (show ¬(1 : Fin S256x4096.rank) ∈ dot_S512x256_S256x4096_S512x4096_1_0_0_1_n_n.rhsBatch by decide), dif_pos (show (1 : Fin S256x4096.rank) ∈ dot_S512x256_S256x4096_S512x4096_1_0_0_1_n_n.rhsNonContracting by decide)]
  rfl

/-- The product into a zero accumulator at (r, c): ∑ j, x (r, j) * w (j, c). -/
theorem matmulA_apply (x : FVec Ideal S512x256 .f32) (w : FVec Ideal S256x4096 .f32) (r : Fin 512) (c : Fin 4096) :
    matmul dot_S512x256_S256x4096_S512x4096_1_0_0_1_n_n none x w (constant (F := Ideal) S512x4096 .f32 0x00000000#32) (ix2 r c)
      = ∑ j : Fin 256, x (ix2 r j) * w (ix2 j c) := by
  simp only [matmul]
  rw [Ideal.matmul_constant_zero_apply, ← Equiv.sum_comp (ValueIdx.contrEquiv1 dot_S512x256_S256x4096_S512x4096_1_0_0_1_n_n 256 rfl rfl).symm]
  refine Finset.sum_congr rfl fun k _ => ?_
  have hk := ValueIdx.contrEquiv1_symm_val dot_S512x256_S256x4096_S512x4096_1_0_0_1_n_n 256 rfl rfl k
  have el : dot_S512x256_S256x4096_S512x4096_1_0_0_1_n_n.lhsIdx (ix2 r c) ((ValueIdx.contrEquiv1 dot_S512x256_S256x4096_S512x4096_1_0_0_1_n_n 256 rfl rfl).symm k) = ix2 r k := funext fun a => Fin.ext (by
    match a with
    | ⟨0, _⟩ => exact lhsA_0 _ _
    | ⟨1, _⟩ => exact (lhsA_1 _ _).trans hk)
  have er : dot_S512x256_S256x4096_S512x4096_1_0_0_1_n_n.rhsIdx (ix2 r c) ((ValueIdx.contrEquiv1 dot_S512x256_S256x4096_S512x4096_1_0_0_1_n_n 256 rfl rfl).symm k) = ix2 k c := funext fun a => Fin.ext (by
    match a with
    | ⟨0, _⟩ => exact (rhsA_0 _ _).trans hk
    | ⟨1, _⟩ => exact rhsA_1 _ _)
  rw [el, er]

/-! ## The product with the 256 × 256 linear weights: axis 1 of both operands -/

/-- The left operand's row is the result's row. -/
theorem lhsB_0 (i : S512x256.Idx) (q : dot_S512x256_S256x256_S512x256_1_1_0_0_n_n.contr.Idx) :
    (dot_S512x256_S256x256_S512x256_1_1_0_0_n_n.lhsIdx i q 0).val = (i 0).val := by
  unfold DotDims.lhsIdx
  rw [dif_neg (show ¬(0 : Fin S512x256.rank) ∈ dot_S512x256_S256x256_S512x256_1_1_0_0_n_n.lhsBatch by decide), dif_pos (show (0 : Fin S512x256.rank) ∈ dot_S512x256_S256x256_S512x256_1_1_0_0_n_n.lhsNonContracting by decide)]
  rfl
/-- The left operand's column is the contraction coordinate. -/
theorem lhsB_1 (i : S512x256.Idx) (q : dot_S512x256_S256x256_S512x256_1_1_0_0_n_n.contr.Idx) :
    (dot_S512x256_S256x256_S512x256_1_1_0_0_n_n.lhsIdx i q 1).val = (q ⟨0, by decide⟩).val :=
  dot_S512x256_S256x256_S512x256_1_1_0_0_n_n.lhsIdx_val_of_single rfl i q
/-- The right operand's row is the result's column. -/
theorem rhsB_0 (i : S512x256.Idx) (q : dot_S512x256_S256x256_S512x256_1_1_0_0_n_n.contr.Idx) :
    (dot_S512x256_S256x256_S512x256_1_1_0_0_n_n.rhsIdx i q 0).val = (i 1).val := by
  unfold DotDims.rhsIdx
  rw [dif_neg (show ¬(0 : Fin S256x256.rank) ∈ dot_S512x256_S256x256_S512x256_1_1_0_0_n_n.rhsBatch by decide), dif_pos (show (0 : Fin S256x256.rank) ∈ dot_S512x256_S256x256_S512x256_1_1_0_0_n_n.rhsNonContracting by decide)]
  rfl
/-- The right operand's column is the contraction coordinate. -/
theorem rhsB_1 (i : S512x256.Idx) (q : dot_S512x256_S256x256_S512x256_1_1_0_0_n_n.contr.Idx) :
    (dot_S512x256_S256x256_S512x256_1_1_0_0_n_n.rhsIdx i q 1).val = (q ⟨0, by decide⟩).val :=
  dot_S512x256_S256x256_S512x256_1_1_0_0_n_n.rhsIdx_val_of_single rfl i q

/-- The product into a zero accumulator at (r, o): ∑ j, x (r, j) * l (o, j). -/
theorem matmulB_apply (x : FVec Ideal S512x256 .f32) (l : FVec Ideal S256x256 .f32) (r : Fin 512) (o : Fin 256) :
    matmul dot_S512x256_S256x256_S512x256_1_1_0_0_n_n none x l (constant (F := Ideal) S512x256 .f32 0x00000000#32) (ix2 r o)
      = ∑ j : Fin 256, x (ix2 r j) * l (ix2 o j) := by
  simp only [matmul]
  rw [Ideal.matmul_constant_zero_apply, ← Equiv.sum_comp (ValueIdx.contrEquiv1 dot_S512x256_S256x256_S512x256_1_1_0_0_n_n 256 rfl rfl).symm]
  refine Finset.sum_congr rfl fun k _ => ?_
  have hk := ValueIdx.contrEquiv1_symm_val dot_S512x256_S256x256_S512x256_1_1_0_0_n_n 256 rfl rfl k
  have el : dot_S512x256_S256x256_S512x256_1_1_0_0_n_n.lhsIdx (ix2 r o) ((ValueIdx.contrEquiv1 dot_S512x256_S256x256_S512x256_1_1_0_0_n_n 256 rfl rfl).symm k) = ix2 r k := funext fun a => Fin.ext (by
    match a with
    | ⟨0, _⟩ => exact lhsB_0 _ _
    | ⟨1, _⟩ => exact (lhsB_1 _ _).trans hk)
  have er : dot_S512x256_S256x256_S512x256_1_1_0_0_n_n.rhsIdx (ix2 r o) ((ValueIdx.contrEquiv1 dot_S512x256_S256x256_S512x256_1_1_0_0_n_n 256 rfl rfl).symm k) = ix2 o k := funext fun a => Fin.ext (by
    match a with
    | ⟨0, _⟩ => exact rhsB_0 _ _
    | ⟨1, _⟩ => exact (rhsB_1 _ _).trans hk)
  rw [el, er]

/-! ## The layout operations at an index -/

/-- The 4096 columns split as 16 × 256: entry (r, i', o) is entry (r, 256 i' + o). -/
theorem split_apply (y : Vec Ideal S512x4096 .f32) (r : Fin 512) (i' : Fin 16) (o : Fin 256) :
    shapeCast S512x16x256 y shapeCasts_S512x4096_S512x16x256 (ix3 r i' o)
      = y (ix2 r ⟨i'.val * 256 + o.val, by have := i'.isLt; have := o.isLt; omega⟩) := by
  refine shapeCast_apply y shapeCasts_S512x4096_S512x16x256 (ix3 r i' o) (ix2 r ⟨i'.val * 256 + o.val, by have := i'.isLt; have := o.isLt; omega⟩) ?_
  rw [Shape.rowMajor_val_two, Shape.rowMajor_val_three]
  show r.val * 4096 + (i'.val * 256 + o.val) = (r.val * 16 + i'.val) * 256 + o.val
  omega

/-- A trailing unit axis added: entry (r, i', 0) is entry (r, i'). -/
theorem column_apply (z : Vec Ideal S512x16 .f32) (r : Fin 512) (i' : Fin 16) (u : Fin 1) :
    shapeCast S512x16x1 z shapeCasts_S512x16_S512x16x1 (ix3 r i' u) = z (ix2 r i') := by
  refine shapeCast_apply z shapeCasts_S512x16_S512x16x1 (ix3 r i' u) (ix2 r i') ?_
  rw [Shape.rowMajor_val_two, Shape.rowMajor_val_three]
  show r.val * 16 + i'.val = (r.val * 16 + i'.val) * 1 + u.val
  have := u.isLt
  omega

/-- The unit axis repeated 256 times: entry (r, i', o) is entry (r, i', 0). -/
theorem repeat_apply (z : Vec Ideal S512x16x1 .f32) (r : Fin 512) (i' : Fin 16) (o : Fin 256) :
    broadcastTo S512x16x256 z broadcasts_S512x16x1_S512x16x256 (ix3 r i' o) = z (ix3 r i' (0 : Fin 1)) := by
  refine broadcastTo_apply z broadcasts_S512x16x1_S512x16x256 (ix3 r i' o) (ix3 r i' (0 : Fin 1)) (fun a => ?_)
  match a with
  | ⟨0, _⟩ => show r.val = if (512 : Nat) = 1 then 0 else r.val; rw [if_neg (by decide)]
  | ⟨1, _⟩ => show i'.val = if (16 : Nat) = 1 then 0 else i'.val; rw [if_neg (by decide)]
  | ⟨2, _⟩ => show 0 = if (1 : Nat) = 1 then 0 else o.val; rw [if_pos rfl]

/-- The reduced index (r, o) with the middle coordinate k put back is (r, k, o). -/
theorem lift_mid (r : Fin 512) (o : Fin 256) (k : Fin (S512x16x256.size 1)) :
    reduces_S512x16x256_S512x256.lift (ix2 r o) k = ix3 r (⟨k.val, k.isLt⟩ : Fin 16) o := by
  funext c; apply Fin.ext
  match c with
  | ⟨0, _⟩ => rfl
  | ⟨1, _⟩ => rfl
  | ⟨2, _⟩ => rfl

/-- The sum over the middle axis from a zero accumulator, at (r, o): ∑ i', t (r, i', o). -/
theorem sumMid_apply (t : Vec Ideal S512x16x256 .f32) (r : Fin 512) (o : Fin 256) :
    multiReduction (F := Ideal) .add [1] S512x256 t 0x00000000#32 reduces_S512x16x256_S512x256 (.inl rfl) rfl (ix2 r o)
      = ∑ i' : Fin 16, t (ix3 r i' o) := by
  refine (Ideal.multiReduction_add_single t 0x00000000#32 reduces_S512x16x256_S512x256 (.inl rfl) rfl (ix2 r o)).trans ?_
  exact Finset.sum_congr rfl fun k _ => congrArg t (lift_mid r o k)

/-- A vector of 256 entries as one row: entry (0, o) is entry o. -/
theorem oneRow_apply (b : Vec Ideal S256 .f32) (u : Fin 1) (o : Fin 256) :
    shapeCast S1x256 b shapeCasts_S256_S1x256 (ix2 u o) = b (ix1 o) := by
  refine shapeCast_apply b shapeCasts_S256_S1x256 (ix2 u o) (ix1 o) ?_
  rw [Shape.rowMajor_val_one, Shape.rowMajor_val_two]
  show o.val = u.val * 256 + o.val
  have := u.isLt
  omega

/-- The one row repeated 512 times: entry (r, o) is entry (0, o). -/
theorem rows_apply (z : Vec Ideal S1x256 .f32) (r : Fin 512) (o : Fin 256) :
    broadcastTo S512x256 z broadcasts_S1x256_S512x256 (ix2 r o) = z (ix2 (0 : Fin 1) o) := by
  refine broadcastTo_apply z broadcasts_S1x256_S512x256 (ix2 r o) (ix2 (0 : Fin 1) o) (fun a => ?_)
  match a with
  | ⟨0, _⟩ => show 0 = if (1 : Nat) = 1 then 0 else r.val; rw [if_pos rfl]
  | ⟨1, _⟩ => show o.val = if (256 : Nat) = 1 then 0 else o.val; rw [if_neg (by decide)]

/-! ## The payloads -/

/-- One sixteen-row part of the quadratic form. -/
theorem pay1_apply (v0 : Vec Ideal S512x256 .f32) (v1 : Vec Ideal S256x4096 .f32) (v8 : Vec Ideal S512x16 .f32) (r : Fin 512) (o : Fin 256) :
    k0_pay1 (F := Ideal) v0 v1 v8 (ix2 r o)
      = ∑ i' : Fin 16, (∑ j : Fin 256, v0 (ix2 r j) * v1 (ix2 j ⟨i'.val * 256 + o.val, by have := i'.isLt; have := o.isLt; omega⟩)) * v8 (ix2 r i') := by
  unfold k0_pay1
  rw [shapeCast_self]
  refine (sumMid_apply _ r o).trans ?_
  refine Finset.sum_congr rfl fun i' _ => ?_
  rw [mulf_apply, split_apply, matmulA_apply, repeat_apply, column_apply]

/-- The linear form plus the first part of the quadratic form. -/
theorem pay2_apply (v0 : Vec Ideal S512x256 .f32) (v1 : Vec Ideal S256x4096 .f32) (v8 : Vec Ideal S512x16 .f32) (v22 : Vec Ideal S256x256 .f32) (r : Fin 512) (o : Fin 256) :
    k0_pay2 (F := Ideal) v0 v1 v8 v22 (ix2 r o) = (∑ j : Fin 256, v0 (ix2 r j) * v22 (ix2 o j)) + k0_pay1 (F := Ideal) v0 v1 v8 (ix2 r o) := by
  unfold k0_pay2
  rw [shapeCast_self, shapeCast_self, addf_apply, matmulB_apply]

/-- The accumulator plus a further part of the quadratic form. -/
theorem pay3_apply (v0 : Vec Ideal S512x256 .f32) (v1 : Vec Ideal S256x4096 .f32) (v8 : Vec Ideal S512x16 .f32) (v22 : Vec Ideal S512x256 .f32) (r : Fin 512) (o : Fin 256) :
    k0_pay3 (F := Ideal) v0 v1 v8 v22 (ix2 r o) = v22 (ix2 r o) + k0_pay1 (F := Ideal) v0 v1 v8 (ix2 r o) := by
  unfold k0_pay3
  rw [shapeCast_self, addf_apply]

/-- The accumulator plus the bias. -/
theorem pay4_apply (v22 : Vec Ideal S512x256 .f32) (v23 : Vec Ideal S256 .f32) (r : Fin 512) (o : Fin 256) :
    k0_pay4 (F := Ideal) v22 v23 (ix2 r o) = v22 (ix2 r o) + v23 (ix1 o) := by
  unfold k0_pay4
  rw [shapeCast_self, addf_apply, rows_apply, oneRow_apply]

end Cert.KIPayload

end
-- ==== Proof.Spec.lean ====
/-
  The mathematics both programs compute, over plain finite index types and the extended reals.

  A row `x b` of 256 entries is extended by a leading one to `one257 x b` (257 entries). The reference forms every
  product `one257 x b p * one257 x b q`, flattens the pair `(p, q)` to `k = 257 p + q`, contracts with the weight row
  `W o` of length 257² = 66049 and adds the bias.

  The kernel splits the same contraction by whether `p` and `q` are zero: the entry `W o 0` joins the bias, the
  entries with exactly one of `p`, `q` zero make a linear form in `x b` (`lin`), and the entries with both positive
  make the quadratic form, summed sixteen values of `p` at a time (`quad n`, `n < 16`) into a running accumulator.
-/
import Mathlib.Data.EReal.Basic
import Mathlib.Algebra.BigOperators.Fin

noncomputable section

namespace Cert.Spec

open scoped BigOperators

abbrev Rows := Fin 2048 → Fin 256 → EReal
abbrev Weights := Fin 256 → Fin 66049 → EReal
abbrev Bias := Fin 256 → EReal

/-- Row `b` of `x` with a one put in front. -/
def one257 (x : Rows) (b : Fin 2048) (p : Fin 257) : EReal :=
  if h : p.val = 0 then 1 else x b ⟨p.val - 1, by have := p.isLt; omega⟩

/-- The reference: the flattened outer product of the extended row with itself, contracted with the weight row, plus
    the bias. -/
def refOut (x : Rows) (W : Weights) (bias : Bias) (b : Fin 2048) (o : Fin 256) : EReal :=
  (∑ k : Fin 66049, (one257 x b ⟨k.val / 257, by have := k.isLt; omega⟩ * one257 x b ⟨k.val % 257, Nat.mod_lt _ (by decide)⟩) * W o k)
    + bias o

/-- The weight of the linear term `x b j`: the entries `(0, j + 1)` and `(j + 1, 0)` of the 257 × 257 square. -/
def wlin (W : Weights) (o : Fin 256) (j : Fin 256) : EReal :=
  W o ⟨j.val + 1, by have := j.isLt; omega⟩ + W o ⟨(j.val + 1) * 257, by have := j.isLt; omega⟩

/-- The weight of the quadratic term `x b i * x b j`: the entry `(i + 1, j + 1)` of the square. -/
def wquad (W : Weights) (o : Fin 256) (i j : Fin 256) : EReal :=
  W o ⟨(i.val + 1) * 257 + (j.val + 1), by have := i.isLt; have := j.isLt; omega⟩

/-- The constant term: the entry `(0, 0)` of the square plus the bias. -/
def cst (W : Weights) (bias : Bias) (o : Fin 256) : EReal := W o ⟨0, by decide⟩ + bias o

/-- The linear form. -/
def lin (x : Rows) (W : Weights) (b : Fin 2048) (o : Fin 256) : EReal := ∑ j : Fin 256, x b j * wlin W o j

/-- The part of the quadratic form whose first index runs over the sixteen values `16 n, …, 16 n + 15`. -/
def quad (x : Rows) (W : Weights) (n : Fin 16) (b : Fin 2048) (o : Fin 256) : EReal :=
  ∑ i' : Fin 16, (∑ j : Fin 256, x b j * wquad W o ⟨16 * n.val + i'.val, by have := n.isLt; have := i'.isLt; omega⟩ j)
    * x b ⟨16 * n.val + i'.val, by have := n.isLt; have := i'.isLt; omega⟩

/-- The same at a natural number (zero past the sixteenth part). -/
def quadN (x : Rows) (W : Weights) (n : ℕ) (b : Fin 2048) (o : Fin 256) : EReal :=
  if h : n < 16 then quad x W ⟨n, h⟩ b o else 0

theorem quadN_of_lt (x : Rows) (W : Weights) (n : Fin 16) (b : Fin 2048) (o : Fin 256) :
    quadN x W n.val b o = quad x W n b o := by
  unfold quadN; rw [dif_pos n.isLt]

/-- The running accumulator: the linear form plus the first part, then one more part per step. -/
def acc (x : Rows) (W : Weights) (b : Fin 2048) (o : Fin 256) : ℕ → EReal
  | 0 => lin x W b o + quadN x W 0 b o
  | n + 1 => acc x W b o n + quadN x W (n + 1) b o

/-- What the kernel writes: the accumulator after the sixteenth part, plus the constant term. -/
def kernOut (x : Rows) (W : Weights) (bias : Bias) (b : Fin 2048) (o : Fin 256) : EReal :=
  acc x W b o 15 + cst W bias o

end Cert.Spec

end
-- ==== Proof.KIAcc.lean ====
/-
  What the accumulator and the result block hold, entry by entry, at the ideal instance: after step `s` of batch block
  `bb` the accumulator's entry `(r, o)` is the running sum of the specification at row `512 bb + r` and column `o`
  after `s` steps; at the last step the result block's entry is that sum plus the constant term.
-/
import proofs.«143003_j31550829756606_1_alg».proof.Proof.KI.Dats
import proofs.«143003_j31550829756606_1_alg».proof.Proof.KIArgs
import proofs.«143003_j31550829756606_1_alg».proof.Proof.KIWindows
import proofs.«143003_j31550829756606_1_alg».proof.Proof.KIPayload
import proofs.«143003_j31550829756606_1_alg».proof.Proof.Spec
import Idealize.ShloMosaic.Lib.ValueIdx
import Idealize.ShloMosaic.Lib.Pipeline.Value

set_option maxRecDepth 16384

noncomputable section

namespace Cert.KIAcc

open Idealize.ShloMosaic Idealize.ShloMosaic.TcCoe Idealize.SL.Sem Idealize.ShloMosaic.ValueIdx
open Cert.KernelIdeal Cert.KernelIdeal.Gen Cert.KIArgs Cert.Proof.KI
open scoped BigOperators

variable (m : (ℓ : Loc nD τ sig) → Buf (Elt Ideal) ℓ)

/-- The program's arguments as the specification takes them. -/
abbrev xS (c : Dev nD) : Cert.Spec.Rows := fun b j => xA m c (ix2 b j)
abbrev wS (c : Dev nD) : Cert.Spec.Weights := fun o k => wA m c (ix2 o k)
abbrev bS (c : Dev nD) : Cert.Spec.Bias := fun o => bA m c (ix1 o)

/-- The row of the whole array that row `r` of point `t`'s block is. -/
abbrev rowOf (t : Fin cfg0.N) (r : Fin 512) : Fin 2048 :=
  ⟨(t.val / 16) * 512 + r.val, by have := t.isLt; have hN : cfg0.N = 64 := N_0; have := r.isLt; omega⟩

/-! ## The index maps, decided over the grid -/

/-- Point `t` is step `t % 16` of batch block `t / 16`: the row window moves with the batch block, the weight window
    with the step, and the linear weights and the constant row stay. -/
theorem idx0 : ∀ t : Fin cfg0.N, win0_0.index t (0 : Fin 2) = t.val / 16 ∧ win0_0.index t (1 : Fin 2) = 0
    ∧ win0_1.index t (0 : Fin 2) = 0 ∧ win0_1.index t (1 : Fin 2) = t.val % 16
    ∧ win0_2.index t (0 : Fin 2) = 0 ∧ win0_2.index t (1 : Fin 2) = 0
    ∧ win0_3.index t (0 : Fin 1) = 0 :=
  (by decide +kernel : ∀ t : Fin grid0.N, _)

/-- The column offset of the body's second load of the row block: sixteen times the step. -/
theorem off1 : ∀ t : Fin cfg0.N, k0_off1 (grid0.coords t) = ![0, 16 * (t.val % 16)] :=
  (by decide +kernel : ∀ t : Fin grid0.N, _)

/-! ## The blocks of a point, read off the arrays -/

/-- Row `r` of the row block is row `512 (t / 16) + r` of the rows. -/
theorem xb_apply (c : Dev nD) (t : Fin cfg0.N) (r : Fin 512) (j : Fin 256) :
    xb m c t (ix2 r j) = xA m c (ix2 (rowOf t r) j) := by
  show V m c main_arg0 (((cfg0.win 0).blk t).view.emb (ix2 r j)) = _
  rw [V_main_arg0]
  refine congrArg (xA m c) ?_
  funext a; apply Fin.ext
  obtain ⟨e0, e1, -⟩ := idx0 t
  match a with
  | ⟨0, _⟩ => show win0_0.index t (0 : Fin 2) * 512 + 1 * r.val = (t.val / 16) * 512 + r.val; rw [e0]; omega
  | ⟨1, _⟩ => show win0_0.index t (1 : Fin 2) * 256 + 1 * j.val = j.val; rw [e1]; omega

/-- Column `col` of the weight block is column `4096 (t % 16) + col` of the quadratic weights. -/
theorem wb_apply (c : Dev nD) (t : Fin cfg0.N) (j : Fin 256) (col : Fin 4096) :
    wb m c t (ix2 j col) = (V m c main_v10 : S256x65536.Idx → EReal)
      (ix2 j ⟨(t.val % 16) * 4096 + col.val, by have := col.isLt; omega⟩) := by
  show V m c main_v10 (((cfg0.win 1).blk t).view.emb (ix2 j col)) = _
  refine congrArg (V m c main_v10) ?_
  funext a; apply Fin.ext
  obtain ⟨-, -, e0, e1, -⟩ := idx0 t
  match a with
  | ⟨0, _⟩ => show win0_1.index t (0 : Fin 2) * 256 + 1 * j.val = j.val; rw [e0]; omega
  | ⟨1, _⟩ => show win0_1.index t (1 : Fin 2) * 4096 + 1 * col.val = (t.val % 16) * 4096 + col.val; rw [e1]; omega

/-- The linear weights' block is the whole array. -/
theorem lb_apply (c : Dev nD) (t : Fin cfg0.N) (o j : Fin 256) :
    lb m c t (ix2 o j) = (V m c main_v7 : S256x256.Idx → EReal) (ix2 o j) := by
  show V m c main_v7 (((cfg0.win 2).blk t).view.emb (ix2 o j)) = _
  refine congrArg (V m c main_v7) ?_
  funext a; apply Fin.ext
  obtain ⟨-, -, -, -, e0, e1, -⟩ := idx0 t
  match a with
  | ⟨0, _⟩ => show win0_2.index t (0 : Fin 2) * 256 + 1 * o.val = o.val; rw [e0]; omega
  | ⟨1, _⟩ => show win0_2.index t (1 : Fin 2) * 256 + 1 * j.val = j.val; rw [e1]; omega

/-- The constant row's block is the whole array. -/
theorem kb_apply (c : Dev nD) (t : Fin cfg0.N) (o : Fin 256) :
    kb m c t (ix1 o) = (V m c main_v11 : S256.Idx → EReal) (ix1 o) := by
  show V m c main_v11 (((cfg0.win 3).blk t).view.emb (ix1 o)) = _
  refine congrArg (V m c main_v11) ?_
  funext a; apply Fin.ext
  obtain ⟨-, -, -, -, -, -, e0⟩ := idx0 t
  match a with
  | ⟨0, _⟩ => show win0_3.index t (0 : Fin 1) * 256 + 1 * o.val = o.val; rw [e0]; omega

/-- The sixteen columns the step selects: column `i'` of them is column `16 (t % 16) + i'` of the row block. -/
theorem stepCols_apply (c : Dev nD) (t : Fin cfg0.N) (r : Fin 512) (i' : Fin 16) :
    stepCols (grid0.coords t) (xb m c t) (ix2 r i')
      = xb m c t (ix2 r ⟨16 * (t.val % 16) + i'.val, by have := i'.isLt; omega⟩) := by
  show xb m c t ((Rect.unit (s := S512x256) (k0_off1 (grid0.coords t)) S512x16.size (k0_off1_inb (grid0.coords t))).idx (ix2 r i')) = _
  refine congrArg (xb m c t) ?_
  funext a; apply Fin.ext
  have e := off1 t
  match a with
  | ⟨0, _⟩ => show k0_off1 (grid0.coords t) 0 + 1 * r.val = r.val; rw [e]; show 0 + 1 * r.val = r.val; omega
  | ⟨1, _⟩ => show k0_off1 (grid0.coords t) 1 + 1 * i'.val = 16 * (t.val % 16) + i'.val; rw [e]; show 16 * (t.val % 16) + 1 * i'.val = _; omega

/-! ## One step -/

/-- The step's part of the quadratic form: the body's first payload on the blocks of point `t` is part `t % 16` of the
    specification's quadratic form at row `512 (t / 16) + r`. The weight block's column `256 i' + o` is column
    `4096 (t % 16) + 256 i' + o` of the quadratic weights, which holds the weight of the pair of entries
    `(16 (t % 16) + i', j)` for output `o`. -/
theorem quad_step (c : Dev nD) (t : Fin cfg0.N) (r : Fin 512) (o : Fin 256) :
    k0_pay1 (F := Ideal) (xb m c t) (wb m c t) (stepCols (grid0.coords t) (xb m c t)) (ix2 r o)
      = Cert.Spec.quadN (xS m c) (wS m c) (t.val % 16) (rowOf t r) o := by
  rw [Cert.KIPayload.pay1_apply]
  unfold Cert.Spec.quadN
  rw [dif_pos (Nat.mod_lt _ (by decide))]
  unfold Cert.Spec.quad
  refine Finset.sum_congr rfl fun i' _ => ?_
  rw [stepCols_apply, xb_apply]
  refine congrArg (· * _) ?_
  refine Finset.sum_congr rfl fun j _ => ?_
  rw [xb_apply, wb_apply, Cert.KIWindows.V_v10_apply]
  refine congrArg (_ * ·) ?_
  unfold Cert.Spec.wquad
  refine congrArg (wA m c) (congrArg₂ ix2 (Fin.ext ?_) (Fin.ext ?_))
  · show ((t.val % 16) * 4096 + (i'.val * 256 + o.val)) % 256 = o.val
    have := o.isLt; omega
  · show (((t.val % 16) * 4096 + (i'.val * 256 + o.val)) / 256 + 1) * 257 + (j.val + 1) = (16 * (t.val % 16) + i'.val + 1) * 257 + (j.val + 1)
    have := o.isLt; have := i'.isLt
    have h : ((t.val % 16) * 4096 + (i'.val * 256 + o.val)) / 256 = 16 * (t.val % 16) + i'.val := by omega
    rw [h]

/-- The linear form: the row block against the linear weights is the specification's linear form at row
    `512 (t / 16) + r`. -/
theorem lin_step (c : Dev nD) (t : Fin cfg0.N) (r : Fin 512) (o : Fin 256) :
    (∑ j : Fin 256, xb m c t (ix2 r j) * lb m c t (ix2 o j)) = Cert.Spec.lin (xS m c) (wS m c) (rowOf t r) o := by
  unfold Cert.Spec.lin
  refine Finset.sum_congr rfl fun j _ => ?_
  rw [xb_apply, lb_apply, Cert.KIWindows.V_v7_apply]
  rfl

/-! ## The accumulator and the result block -/

/-- The specification's accumulator at its first step. -/
theorem acc_first_eq (x : Cert.Spec.Rows) (W : Cert.Spec.Weights) (b : Fin 2048) (o : Fin 256) (k : ℕ) (hk : k = 0) :
    Cert.Spec.lin x W b o + Cert.Spec.quadN x W k b o = Cert.Spec.acc x W b o k := by
  subst hk; rfl

/-- The specification's accumulator at a later step. -/
theorem acc_next_eq (x : Cert.Spec.Rows) (W : Cert.Spec.Weights) (b : Fin 2048) (o : Fin 256) (k : ℕ) (hk : ¬k = 0) :
    Cert.Spec.acc x W b o (k - 1) + Cert.Spec.quadN x W k b o = Cert.Spec.acc x W b o k := by
  cases k with
  | zero => exact absurd rfl hk
  | succ k => rfl

/-- The accumulator after point `t`, entry by entry. -/
theorem acc_apply (c : Dev nD) (t : Fin cfg0.N) (r : Fin 512) (o : Fin 256) :
    accAt (F := Ideal) m c t.val t.isLt (ix2 r o) = Cert.Spec.acc (xS m c) (wS m c) (rowOf t r) o (t.val % 16) := by
  obtain ⟨n, hn⟩ := t
  induction n using Nat.strong_induction_on generalizing r o with
  | _ n ih =>
    by_cases h0 : n % 16 = 0
    · -- a first step: the linear form plus the first part
      refine (congrFun (accAt_first m c ⟨n, hn⟩ h0) (ix2 r o)).trans ?_
      rw [Cert.KIPayload.pay2_apply, lin_step, quad_step]
      exact acc_first_eq _ _ _ _ _ h0
    · -- a later step of the same batch block: what the point before left, plus this step's part
      refine (congrFun (accAt_next m c ⟨n, hn⟩ h0) (ix2 r o)).trans ?_
      rw [Cert.KIPayload.pay3_apply, quad_step]
      have hn' : n - 1 < cfg0.N := Nat.lt_of_le_of_lt (Nat.sub_le _ _) hn
      have e := ih (n - 1) (by omega) (hn := hn') (r := r) (o := o)
      have hrow : rowOf ⟨n - 1, hn'⟩ r = rowOf ⟨n, hn⟩ r :=
        Fin.ext (by show (n - 1) / 16 * 512 + r.val = n / 16 * 512 + r.val; omega)
      have hk : (n - 1) % 16 = n % 16 - 1 := by omega
      refine (congrArg (· + _) (e.trans ?_)).trans (acc_next_eq _ _ _ _ _ h0)
      show Cert.Spec.acc (xS m c) (wS m c) (rowOf ⟨n - 1, hn'⟩ r) o ((n - 1) % 16) = Cert.Spec.acc (xS m c) (wS m c) (rowOf ⟨n, hn⟩ r) o (n % 16 - 1)
      rw [hrow, hk]

/-- The result block at a last step, entry by entry. -/
theorem out_apply (c : Dev nD) (t : Fin cfg0.N) (h15 : t.val % 16 = 15) (r : Fin 512) (o : Fin 256) :
    k0_pay4 (F := Ideal) (accAt (F := Ideal) m c t.val t.isLt) (kb m c t) (ix2 r o)
      = Cert.Spec.kernOut (xS m c) (wS m c) (bS m c) (rowOf t r) o := by
  rw [Cert.KIPayload.pay4_apply, acc_apply, kb_apply, Cert.KIWindows.V_v11_apply, h15]
  rfl

end Cert.KIAcc

end
-- ==== Proof.KIFinal.lean ====
/-
  The kernel program's result as one whole array: every last step writes its batch block's 512 rows back, the four
  batch blocks tile the 2048 rows, so after the run the result array holds the specification's kernel form at every
  entry; the program's last operation reshapes it to 2048 × 16 × 16.
-/
import proofs.«143003_j31550829756606_1_alg».proof.Proof.KIAcc
import Idealize.ShloMosaic.Lib.StableHlo.Run

set_option maxRecDepth 16384

noncomputable section

namespace Cert.KIFinal

open Idealize.ShloMosaic Idealize.ShloMosaic.TcCoe Idealize.SL.Sem Idealize.ShloMosaic.ValueIdx
open Cert.KernelIdeal Cert.KernelIdeal.Gen Cert.KIArgs Cert.Proof.KI Cert.KIAcc

variable (m : (ℓ : Loc nD τ sig) → Buf (Elt Ideal) ℓ) (ρ : Dev nD → PrngReg)

/-- The result before the last reshape: the specification's kernel form at every row and column. -/
def G (c : Dev nD) : Vec Ideal S2048x256 .f32 := fun i => Cert.Spec.kernOut (xS m c) (wS m c) (bS m c) (i 0) (i 1)

/-! ## The result window's blocks -/

/-- The result window's block index at point `t`: the batch block `t / 16` along the rows, the one block along the
    columns (decided over the 64 points). -/
theorem idx4 : ∀ t : Fin cfg0.N, win0_4.index t (0 : Fin 2) = t.val / 16 ∧ win0_4.index t (1 : Fin 2) = 0 :=
  (by decide +kernel : ∀ t : Fin grid0.N, _)

/-- What a last step writes back is its block of `G`: entry `(r, o)` of the block of point `t` is entry
    `(512 (t / 16) + r, o)` of the whole array. -/
theorem flushed_eq (c : Dev nD) (t : Fin cfg0.N) (h15 : t.val % 16 = 15) :
    (dats (F := Ideal) m 0 c).flushed 4 t = ((cfg0.win 4).blk t).view.read (Elt Ideal) (G m c) := by
  show (cfg0.win 4).cut (grid0.coords t) ((dats (F := Ideal) m 0 c).after 4 t) = _
  rw [after4]
  funext y
  obtain ⟨r, o, rfl⟩ : ∃ (r : Fin 512) (o : Fin 256), (y : S512x256.Idx) = ix2 r o := ⟨y 0, y 1, eq_ix2 (n0 := 512) (n1 := 256) y⟩
  refine (out_apply m c t h15 r o).trans ?_
  obtain ⟨e0, e1⟩ := idx4 t
  show _ = G m c (((cfg0.win 4).blk t).view.emb (ix2 r o))
  have hrow : (((cfg0.win 4).blk t).view.emb (ix2 r o)) 0 = rowOf t r := by
    apply Fin.ext
    show win0_4.index t (0 : Fin 2) * 512 + 1 * r.val = t.val / 16 * 512 + r.val
    omega
  have hcol : (((cfg0.win 4).blk t).view.emb (ix2 r o)) 1 = o := by
    apply Fin.ext
    show win0_4.index t (1 : Fin 2) * 256 + 1 * o.val = o.val
    omega
  exact (congrArg₂ (Cert.Spec.kernOut (xS m c) (wS m c) (bS m c)) hrow hcol).symm

/-- An index of the array is in point `t`'s block iff each coordinate is in the block's range on its axis. -/
theorem mem_blk (t : Fin cfg0.N) (i : S2048x256.Idx) :
    i ∈ ((cfg0.win 4).blk t).view.set ↔ ∀ a : Fin 2, win0_4.index t a * S512x256.size a ≤ (i a).val ∧ (i a).val < win0_4.index t a * S512x256.size a + S512x256.size a := by
  show i ∈ ((View.whole main_v12).slice (win0_4.rect t)).set ↔ _
  rw [View.set_slice_whole, Rect.mem_set_unit]
  exact Iff.rfl

/-- The four batch blocks tile the rows: row `b` lies in the block written back at the last step of batch block
    `b / 512`, the point `16 (b / 512) + 15`. -/
theorem cover (i : S2048x256.Idx) : ∃ t : Fin cfg0.N, (cfg0.win 4).flush t = true ∧ i ∈ ((cfg0.win 4).blk t).view.set := by
  have hi0 : (i 0).val < 2048 := (i 0).isLt
  have hi1 : (i 1).val < 256 := (i 1).isLt
  have hN : cfg0.N = 64 := N_0
  obtain ⟨t, ht⟩ : ∃ t : Fin cfg0.N, t.val = 16 * ((i 0).val / 512) + 15 := ⟨⟨16 * ((i 0).val / 512) + 15, by omega⟩, rfl⟩
  obtain ⟨e0, e1⟩ := idx4 t
  refine ⟨t, (flush0_4 t).mpr (by omega), ?_⟩
  rw [mem_blk]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 256 ≤ (i 1).val ∧ (i 1).val < win0_4.index t (1 : Fin 2) * 256 + 256; omega

/-- The result window's array after the run. -/
theorem final (c : Dev nD) : (dats (F := Ideal) m 0 c).arrAt 4 cfg0.N = G m c :=
  (dats (F := Ideal) m 0 c).arrAt_eq_of_cover 4 (G m c) (fun t hf => flushed_eq m c t ((flush0_4 t).mp hf)) cover

/-! ## The run -/

/-- After the region the one remaining operation reshapes the result window's array: the reshaped buffer holds `G`
    recast to 2048 × 16 × 16. -/
theorem tail_v13 (c : Dev nD) :
    Pipeline.afterTail₀ cfgs (dats (F := Ideal) m) 0 (V0 m) [hostOps1] c main_v13
      = shapeCast S2048x16x16 (G m c) shapeCasts_S2048x256_S2048x16x16 := by
  unfold Pipeline.afterTail₀
  show StableHlo.after hostOps1 _ (Proc.devRef .tc main_v13) = _
  after_results
  exact congrArg (fun z => shapeCast S2048x16x16 z shapeCasts_S2048x256_S2048x16x16)
    ((Pipeline.withArrays_arr spec0 launch0.win.arr_inj c _ _ 4).trans (final m c))

/-- The program's run with its result named. -/
theorem run_value : θ_run defs (onTc (τ := τ) (main (F := Ideal))) ⟨m, fun _ => 0, ρ⟩ (fun r => ∀ c : Dev nD,
      r.2.mem ((c.tc : Thread nD τ).loc main_v13) = shapeCast S2048x16x16 (G m c) shapeCasts_S2048x256_S2048x16x16
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h c).2 main_v13 (Pipeline.mem_restRefs_of main_v13 (by decide) (by decide))).trans (tail_v13 m c),
      ((h c).1 0).trans (((dats (F := Ideal) m 0 c).arrAt_in 0 rfl _).trans ((A_eq m c 0).trans (V_main_arg0 m c))),
      (((h c).2 main_arg1 (Pipeline.mem_restRefs_of main_arg1 (by decide) (by decide))).trans (W_main_arg1 m (dats (F := Ideal) m) c)),
      (((h c).2 main_arg2 (Pipeline.mem_restRefs_of main_arg2 (by decide) (by decide))).trans (W_main_arg2 m (dats (F := Ideal) m) c))⟩)
    (run_main (F := Ideal) m ρ)

end Cert.KIFinal

end
-- ==== Proof.RefValue.lean ====
/-
  The reference program read at an index, at the ideal instance (floats are extended reals).

  The joined array `v1` (a column of ones in front of `x0`) is `one257` of the rows of `x0`; the two broadcasts and the
  product give `v6 (b, p, q) = v1 (b, p) * v1 (b, q)`; the reshape flattens `(p, q)` to `k = 257 p + q`, so
  `v7 (b, k) = v1 (b, k / 257) * v1 (b, k % 257)`; the transpose gives `v8 (k, o) = x1 (o, k)`; the contraction sums over
  `k` and the doubly broadcast bias `x2 o` is added.
-/
import proofs.«143003_j31550829756606_1_alg».proof.Proof.Spec
import proofs.«143003_j31550829756606_1_alg».proof.Proof.Gen.ReferenceIdeal.Read
import Idealize.ShloMosaic.Lib.ValueIdx
import Idealize.ShloMosaic.Lib.Pipeline.Value
import Idealize.ShloMosaic.PureOps.Ideal.Laws

noncomputable section

namespace Cert.RefValue

open Idealize.ShloMosaic Idealize.ShloMosaic.TcCoe Idealize.SL.Sem Idealize.ShloMosaic.ValueIdx
open Cert.ReferenceIdeal
open scoped BigOperators

/-- The f32 word `0x3F800000` (sign 0, biased exponent 127, fraction 0) denotes the real one. -/
theorem one_word : Ideal.ofBits .f32 0x3F800000#32 = 1 := by
  rw [show (1 : EReal) = ((1 : ℝ) : EReal) by norm_cast]
  simp [Ideal.ofBits, Ideal.ieee, -EReal.coe_mul]; norm_num

/-- Column 0 of the joined array lies in the first piece, the column of ones. -/
theorem v1_zero (x0 : (⟨S2048x256, .f32⟩ : BufTy).Contents (Elt Ideal)) (b : Fin 2048) (p : Fin 257) (hp : p.val = 0) :
    Read.val_main_v1 (F := Ideal) x0 (ix2 b p) = 1 := by
  unfold Read.val_main_v1
  rw [concatenate_pair_apply_left (t := S2048x257) (s₁ := S2048x1) (s₂ := S2048x256) 1 _ _ _ (ix2 b p) rfl
    (ix2 b ⟨0, Nat.one_pos⟩) (fun c => by
      match c with
      | ⟨0, _⟩ => rfl
      | ⟨1, _⟩ => exact hp.symm)]
  rw [Read.val_main_v0_apply, Read.val_main_cst_apply, Ideal.ofBits_def, one_word]

/-- A column `p ≥ 1` of the joined array lies in the second piece, at column `p - 1` of `x0`. -/
theorem v1_succ (x0 : (⟨S2048x256, .f32⟩ : BufTy).Contents (Elt Ideal)) (b : Fin 2048) (p : Fin 257) (hp : ¬ p.val = 0) :
    Read.val_main_v1 (F := Ideal) x0 (ix2 b p) = x0 (ix2 b ⟨p.val - 1, by have := p.isLt; omega⟩) := by
  unfold Read.val_main_v1
  exact concatenate_pair_apply_right (t := S2048x257) (s₁ := S2048x1) (s₂ := S2048x256) 1 _ _ _ (ix2 b p) rfl rfl
    (ix2 b ⟨p.val - 1, by have := p.isLt; omega⟩)
    (fun c hc => by
      match c with
      | ⟨0, _⟩ => rfl
      | ⟨1, _⟩ => exact absurd rfl hc)
    (by show p.val - 1 + 1 = p.val; omega)

/-- The joined array is the row of `x0` with a one put in front. -/
theorem v1_apply (x0 : (⟨S2048x256, .f32⟩ : BufTy).Contents (Elt Ideal)) (b : Fin 2048) (p : Fin 257) :
    Read.val_main_v1 (F := Ideal) x0 (ix2 b p) = Cert.Spec.one257 (fun b j => x0 (ix2 b j)) b p := by
  unfold Cert.Spec.one257
  by_cases hp : p.val = 0
  · rw [dif_pos hp]; exact v1_zero x0 b p hp
  · rw [dif_neg hp]; exact v1_succ x0 b p hp

/-- The flattened product. The reshape reads `v6` at `(b, k / 257, k % 257)` (the row-major position `66049 b + k` split
    as `257 (257 b + k / 257) + k % 257`); the two broadcasts read the joined array at `(b, k / 257)` and `(b, k % 257)`. -/
theorem v7_apply (x0 : (⟨S2048x256, .f32⟩ : BufTy).Contents (Elt Ideal)) (b : Fin 2048) (k : Fin 66049) :
    Read.val_main_v7 (F := Ideal) x0 (ix2 b k)
      = Cert.Spec.one257 (fun b j => x0 (ix2 b j)) b ⟨k.val / 257, by have := k.isLt; omega⟩
        * Cert.Spec.one257 (fun b j => x0 (ix2 b j)) b ⟨k.val % 257, Nat.mod_lt _ (by decide)⟩ := by
  have hb : b.val < 2048 := b.isLt
  have hk : k.val < 66049 := k.isLt
  have e4 : Read.idx_main_v2 (Read.idx_main_v4 (Read.idx_main_v7 (ix2 b k)))
      = ix2 b (⟨k.val / 257, by omega⟩ : Fin 257) := funext fun a => Fin.ext (by
    match a with
    | ⟨0, _⟩ => show (b.val * 66049 + k.val) / 66049 = b.val; omega
    | ⟨1, _⟩ => show (b.val * 66049 + k.val) / 257 % 257 = k.val / 257; omega)
  have e5 : Read.idx_main_v3 (Read.idx_main_v5 (Read.idx_main_v7 (ix2 b k)))
      = ix2 b (⟨k.val % 257, Nat.mod_lt _ (by decide)⟩ : Fin 257) := funext fun a => Fin.ext (by
    match a with
    | ⟨0, _⟩ => show (b.val * 66049 + k.val) / 66049 = b.val; omega
    | ⟨1, _⟩ => show (b.val * 66049 + k.val) % 257 = k.val % 257; omega)
  rw [Read.val_main_v7_apply, Read.val_main_v6_apply, Read.val_main_v4_apply, Read.val_main_v2_apply,
    Read.val_main_v5_apply, Read.val_main_v3_apply, e4, e5, v1_apply, v1_apply, Ideal.mulf_def]

/-- The transposed weights: `v8 (k, o) = x1 (o, k)`. -/
theorem v8_apply (x1 : (⟨S256x66049, .f32⟩ : BufTy).Contents (Elt Ideal)) (k : Fin 66049) (o : Fin 256) :
    Read.val_main_v8 (F := Ideal) x1 (ix2 k o) = x1 (ix2 o k) := by
  rw [Read.val_main_v8_apply]
  congr 1
  funext a
  match a with
  | ⟨0, _⟩ => rfl
  | ⟨1, _⟩ => rfl

/-- The doubly broadcast bias: `v11 (b, o) = x2 o`. -/
theorem v11_apply (x2 : (⟨S256, .f32⟩ : BufTy).Contents (Elt Ideal)) (b : Fin 2048) (o : Fin 256) :
    Read.val_main_v11 (F := Ideal) x2 (ix2 b o) = x2 (ix1 o) := by
  rw [Read.val_main_v11_apply, Read.val_main_v10_apply]
  congr 1
  funext a
  match a with
  | ⟨0, _⟩ => rfl

/-- The reference's value before its last reshape, at `(b, o)`: the contraction over `k` of the flattened product with
    the weight row, plus the bias. -/
theorem ref_apply (x0 : (⟨S2048x256, .f32⟩ : BufTy).Contents (Elt Ideal)) (x1 : (⟨S256x66049, .f32⟩ : BufTy).Contents (Elt Ideal))
    (x2 : (⟨S256, .f32⟩ : BufTy).Contents (Elt Ideal)) (b : Fin 2048) (o : Fin 256) :
    Cert.ReferenceIdeal.Read.val_main_v12 (F := Ideal) x0 x1 x2 (ix2 b o)
      = Cert.Spec.refOut (fun b j => x0 (ix2 b j)) (fun o k => x1 (ix2 o k)) (fun o => x2 (ix1 o)) b o := by
  unfold Cert.Spec.refOut
  rw [Read.val_main_v12_apply, Ideal.addf_def, Read.val_main_v9_apply, v11_apply]
  refine congrArg (fun s => s + x2 (ix1 o)) ?_
  refine Finset.sum_congr rfl fun k _ => ?_
  have el : Read.lidx_main_v9 (ix2 b o) k = ix2 b k := funext fun a => by
    match a with
    | ⟨0, _⟩ => rfl
    | ⟨1, _⟩ => rfl
  have er : Read.ridx_main_v9 (ix2 b o) k = ix2 k o := funext fun a => by
    match a with
    | ⟨0, _⟩ => rfl
    | ⟨1, _⟩ => rfl
  rw [el, er, v7_apply, v8_apply]

end Cert.RefValue

end
-- ==== Proof.SpecLaw.lean ====
/-
  The kernel's value equals the reference's value whenever every entry of the row, the weights and the bias is a
  real number.

  Over the extended reals a factor cannot be pulled through a sum (the law fails at the infinities), so the
  identity is proved over the real numbers and carried across the inclusion of the reals: each quantity of the
  specification, evaluated at real data, is the inclusion of the same expression formed over the reals.

  Over the reals: the 257² products are indexed by pairs (p, q) with k = 257 p + q; each of p and q is either 0
  (the leading one) or a successor (an entry of the row). The pair (0, 0) gives the constant, the pairs (0, j + 1)
  and (i + 1, 0) give the linear form, the pairs (i + 1, j + 1) give the quadratic form, whose outer index
  i < 256 is the pair (n, i') with i = 16 n + i'.
-/
import proofs.«143003_j31550829756606_1_alg».proof.Proof.Spec
import Mathlib.Logic.Equiv.Fin.Basic
import Mathlib.Data.Fintype.BigOperators
import Mathlib.Tactic.Ring

noncomputable section

namespace Cert.Spec

open scoped BigOperators

/-! ### The inclusion of the reals commutes with finite sums -/

theorem coe_sum {ι : Type} (s : Finset ι) (f : ι → ℝ) :
    ((∑ i ∈ s, f i : ℝ) : EReal) = ∑ i ∈ s, (f i : EReal) := by
  classical
  refine Finset.induction_on s ?_ ?_
  · simp
  · intro a s ha ih
    rw [Finset.sum_insert ha, Finset.sum_insert ha, EReal.coe_add, ih]

/-! ### The same quantities over the real numbers -/

abbrev RowsR := Fin 2048 → Fin 256 → ℝ
abbrev WeightsR := Fin 256 → Fin 66049 → ℝ
abbrev BiasR := Fin 256 → ℝ

/-- Real data seen as extended-real data. -/
def cx (x : RowsR) : Rows := fun b j => (x b j : EReal)
def cW (W : WeightsR) : Weights := fun o k => (W o k : EReal)
def cb (bias : BiasR) : Bias := fun o => (bias o : EReal)

theorem cx_apply (x : RowsR) (b : Fin 2048) (j : Fin 256) : cx x b j = (x b j : EReal) := rfl
theorem cW_apply (W : WeightsR) (o : Fin 256) (k : Fin 66049) : cW W o k = (W o k : EReal) := rfl
theorem cb_apply (bias : BiasR) (o : Fin 256) : cb bias o = (bias o : EReal) := rfl

def one257R (x : RowsR) (b : Fin 2048) (p : Fin 257) : ℝ :=
  if h : p.val = 0 then 1 else x b ⟨p.val - 1, by have := p.isLt; omega⟩

def refOutR (x : RowsR) (W : WeightsR) (bias : BiasR) (b : Fin 2048) (o : Fin 256) : ℝ :=
  (∑ k : Fin 66049, (one257R x b ⟨k.val / 257, by have := k.isLt; omega⟩ * one257R x b ⟨k.val % 257, Nat.mod_lt _ (by decide)⟩) * W o k)
    + bias o

def wlinR (W : WeightsR) (o : Fin 256) (j : Fin 256) : ℝ :=
  W o ⟨j.val + 1, by have := j.isLt; omega⟩ + W o ⟨(j.val + 1) * 257, by have := j.isLt; omega⟩

def wquadR (W : WeightsR) (o : Fin 256) (i j : Fin 256) : ℝ :=
  W o ⟨(i.val + 1) * 257 + (j.val + 1), by have := i.isLt; have := j.isLt; omega⟩

def cstR (W : WeightsR) (bias : BiasR) (o : Fin 256) : ℝ := W o ⟨0, by decide⟩ + bias o

def linR (x : RowsR) (W : WeightsR) (b : Fin 2048) (o : Fin 256) : ℝ := ∑ j : Fin 256, x b j * wlinR W o j

def quadR (x : RowsR) (W : WeightsR) (n : Fin 16) (b : Fin 2048) (o : Fin 256) : ℝ :=
  ∑ i' : Fin 16, (∑ j : Fin 256, x b j * wquadR W o ⟨16 * n.val + i'.val, by have := n.isLt; have := i'.isLt; omega⟩ j)
    * x b ⟨16 * n.val + i'.val, by have := n.isLt; have := i'.isLt; omega⟩

/-! ### Each quantity at real data is the inclusion of its real counterpart -/

theorem one257_coe (x : RowsR) (b : Fin 2048) (p : Fin 257) :
    one257 (cx x) b p = (one257R x b p : EReal) := by
  unfold one257 one257R
  split_ifs
  · simp
  · rfl

theorem refOut_coe (x : RowsR) (W : WeightsR) (bias : BiasR) (b : Fin 2048) (o : Fin 256) :
    refOut (cx x) (cW W) (cb bias) b o = (refOutR x W bias b o : EReal) := by
  unfold refOut refOutR
  simp only [one257_coe, cW_apply, cb_apply, coe_sum, EReal.coe_add, EReal.coe_mul]

theorem wlin_coe (W : WeightsR) (o j : Fin 256) : wlin (cW W) o j = (wlinR W o j : EReal) := by
  unfold wlin wlinR
  simp only [cW_apply, EReal.coe_add]

theorem wquad_coe (W : WeightsR) (o i j : Fin 256) : wquad (cW W) o i j = (wquadR W o i j : EReal) := by
  unfold wquad wquadR
  simp only [cW_apply]

theorem cst_coe (W : WeightsR) (bias : BiasR) (o : Fin 256) : cst (cW W) (cb bias) o = (cstR W bias o : EReal) := by
  unfold cst cstR
  simp only [cW_apply, cb_apply, EReal.coe_add]

theorem lin_coe (x : RowsR) (W : WeightsR) (b : Fin 2048) (o : Fin 256) :
    lin (cx x) (cW W) b o = (linR x W b o : EReal) := by
  unfold lin linR
  simp only [wlin_coe, cx_apply, coe_sum, EReal.coe_mul]

theorem quad_coe (x : RowsR) (W : WeightsR) (n : Fin 16) (b : Fin 2048) (o : Fin 256) :
    quad (cx x) (cW W) n b o = (quadR x W n b o : EReal) := by
  unfold quad quadR
  simp only [wquad_coe, cx_apply, coe_sum, EReal.coe_mul]

/-! ### The accumulator is the linear form plus the sum of the parts -/

theorem acc_eq (x : Rows) (W : Weights) (b : Fin 2048) (o : Fin 256) (n : ℕ) :
    acc x W b o n = lin x W b o + ∑ k ∈ Finset.range (n + 1), quadN x W k b o := by
  induction n with
  | zero => simp [acc]
  | succ n ih => rw [acc, ih, Finset.sum_range_succ _ (n + 1), add_assoc]

theorem sum_quadN (x : Rows) (W : Weights) (b : Fin 2048) (o : Fin 256) :
    ∑ k ∈ Finset.range 16, quadN x W k b o = ∑ n : Fin 16, quad x W n b o := by
  rw [← Fin.sum_univ_eq_sum_range (fun k => quadN x W k b o) 16]
  exact Finset.sum_congr rfl (fun n _ => quadN_of_lt x W n b o)

theorem kernOut_eq (x : Rows) (W : Weights) (bias : Bias) (b : Fin 2048) (o : Fin 256) :
    kernOut x W bias b o = lin x W b o + ∑ n : Fin 16, quad x W n b o + cst W bias o := by
  unfold kernOut
  rw [acc_eq, sum_quadN]

theorem kernOut_coe (x : RowsR) (W : WeightsR) (bias : BiasR) (b : Fin 2048) (o : Fin 256) :
    kernOut (cx x) (cW W) (cb bias) b o
      = ((linR x W b o + ∑ n : Fin 16, quadR x W n b o + cstR W bias o : ℝ) : EReal) := by
  rw [kernOut_eq]
  simp only [lin_coe, quad_coe, cst_coe, coe_sum, EReal.coe_add]

/-! ### The identity over the reals -/

/-- A weight entry depends only on the value of its index. -/
theorem W_congr (W : WeightsR) (o : Fin 256) (a c : ℕ) (ha : a < 66049) (hc : c < 66049) (h : a = c) :
    W o ⟨a, ha⟩ = W o ⟨c, hc⟩ := by
  subst h; rfl

theorem one257R_zero (x : RowsR) (b : Fin 2048) : one257R x b 0 = 1 := by
  unfold one257R; simp

theorem one257R_succ (x : RowsR) (b : Fin 2048) (i : Fin 256) : one257R x b i.succ = x b i := by
  unfold one257R
  rw [dif_neg (by simp)]
  congr 1

/-- The flat index k = 257 p + q as a pair (p, q). -/
def pair257 : Fin 257 × Fin 257 ≃ Fin 66049 := finProdFinEquiv

theorem pair257_val (p q : Fin 257) : (pair257 (p, q)).val = q.val + 257 * p.val := rfl

/-- The index i = 16 n + i' as a pair (n, i'). -/
def pair16 : Fin 16 × Fin 16 ≃ Fin 256 := finProdFinEquiv

theorem pair16_val (n i' : Fin 16) : (pair16 (n, i')).val = i'.val + 16 * n.val := rfl

/-- The reference as a double sum over (p, q). -/
theorem refOutR_pairs (x : RowsR) (W : WeightsR) (bias : BiasR) (b : Fin 2048) (o : Fin 256) :
    refOutR x W bias b o
      = (∑ p : Fin 257, ∑ q : Fin 257, one257R x b p * one257R x b q * W o (pair257 (p, q))) + bias o := by
  unfold refOutR
  refine congrArg (fun t => t + bias o) ?_
  rw [← Equiv.sum_comp pair257, Fintype.sum_prod_type]
  refine Finset.sum_congr rfl (fun p _ => Finset.sum_congr rfl (fun q _ => ?_))
  have hp : (⟨(pair257 (p, q)).val / 257, by have := (pair257 (p, q)).isLt; omega⟩ : Fin 257) = p := by
    apply Fin.ext; show (pair257 (p, q)).val / 257 = p.val; rw [pair257_val]; have := q.isLt; omega
  have hq : (⟨(pair257 (p, q)).val % 257, Nat.mod_lt _ (by decide)⟩ : Fin 257) = q := by
    apply Fin.ext; show (pair257 (p, q)).val % 257 = q.val; rw [pair257_val]; have := q.isLt; omega
  rw [hp, hq]

/-- The sixteen parts together are the quadratic form with its outer index running over all 256 values. -/
theorem sum_quadR (x : RowsR) (W : WeightsR) (b : Fin 2048) (o : Fin 256) :
    ∑ n : Fin 16, quadR x W n b o = ∑ i : Fin 256, (∑ j : Fin 256, x b j * wquadR W o i j) * x b i := by
  rw [← Equiv.sum_comp pair16, Fintype.sum_prod_type]
  refine Finset.sum_congr rfl (fun n _ => ?_)
  unfold quadR
  refine Finset.sum_congr rfl (fun i' _ => ?_)
  have hi : (⟨16 * n.val + i'.val, by have := n.isLt; have := i'.isLt; omega⟩ : Fin 256) = pair16 (n, i') := by
    apply Fin.ext; show 16 * n.val + i'.val = (pair16 (n, i')).val; rw [pair16_val]; omega
  rw [hi]

/-- The inner sum over q, split into q = 0 and the successors. -/
theorem inner_split (x : RowsR) (W : WeightsR) (b : Fin 2048) (o : Fin 256) (p : Fin 257) :
    ∑ q : Fin 257, one257R x b p * one257R x b q * W o (pair257 (p, q))
      = one257R x b p * W o (pair257 (p, 0))
        + ∑ j : Fin 256, one257R x b p * x b j * W o (pair257 (p, j.succ)) := by
  rw [Fin.sum_univ_succ, one257R_zero, mul_one]
  simp only [one257R_succ]

theorem pair257_zero_zero : pair257 (0, 0) = ⟨0, by decide⟩ := by
  apply Fin.ext; rw [pair257_val]; rfl

theorem pair257_zero_succ (j : Fin 256) :
    pair257 (0, j.succ) = ⟨j.val + 1, by have := j.isLt; omega⟩ := by
  apply Fin.ext; rw [pair257_val]; simp

theorem pair257_succ_zero (i : Fin 256) :
    pair257 (i.succ, 0) = ⟨(i.val + 1) * 257, by have := i.isLt; omega⟩ := by
  apply Fin.ext; rw [pair257_val]; simp; omega

theorem pair257_succ_succ (i j : Fin 256) :
    pair257 (i.succ, j.succ) = ⟨(i.val + 1) * 257 + (j.val + 1), by have := i.isLt; have := j.isLt; omega⟩ := by
  apply Fin.ext; rw [pair257_val]; simp; omega

/-- The reference with the pairs sorted by which of p, q are zero. -/
theorem refOutR_split (x : RowsR) (W : WeightsR) (bias : BiasR) (b : Fin 2048) (o : Fin 256) :
    refOutR x W bias b o
      = (1 * W o ⟨0, by decide⟩ + ∑ j : Fin 256, 1 * x b j * W o ⟨j.val + 1, by have := j.isLt; omega⟩)
        + ∑ i : Fin 256, (x b i * W o ⟨(i.val + 1) * 257, by have := i.isLt; omega⟩
            + ∑ j : Fin 256, x b i * x b j * W o ⟨(i.val + 1) * 257 + (j.val + 1), by have := i.isLt; have := j.isLt; omega⟩)
        + bias o := by
  rw [refOutR_pairs]
  simp only [inner_split]
  rw [Fin.sum_univ_succ, one257R_zero]
  simp only [one257R_succ, pair257_zero_zero, pair257_zero_succ, pair257_succ_zero, pair257_succ_succ]

/-- The identity over the reals. -/
theorem real_law (x : RowsR) (W : WeightsR) (bias : BiasR) (b : Fin 2048) (o : Fin 256) :
    linR x W b o + ∑ n : Fin 16, quadR x W n b o + cstR W bias o = refOutR x W bias b o := by
  rw [sum_quadR, refOutR_split]
  unfold linR cstR wlinR wquadR
  have h1 : ∑ j : Fin 256, x b j * (W o ⟨j.val + 1, by have := j.isLt; omega⟩ + W o ⟨(j.val + 1) * 257, by have := j.isLt; omega⟩)
      = ∑ j : Fin 256, 1 * x b j * W o ⟨j.val + 1, by have := j.isLt; omega⟩
        + ∑ i : Fin 256, x b i * W o ⟨(i.val + 1) * 257, by have := i.isLt; omega⟩ := by
    rw [← Finset.sum_add_distrib]
    exact Finset.sum_congr rfl (fun j _ => by ring)
  have h2 : ∀ i : Fin 256,
      (∑ j : Fin 256, x b j * W o ⟨(i.val + 1) * 257 + (j.val + 1), by have := i.isLt; have := j.isLt; omega⟩) * x b i
        = ∑ j : Fin 256, x b i * x b j * W o ⟨(i.val + 1) * 257 + (j.val + 1), by have := i.isLt; have := j.isLt; omega⟩ := by
    intro i
    rw [Finset.sum_mul]
    exact Finset.sum_congr rfl (fun j _ => by ring)
  rw [h1, Finset.sum_add_distrib]
  simp only [h2]
  ring

/-! ### The statement -/

theorem kernOut_eq_refOut (x : Rows) (W : Weights) (bias : Bias)
    (hx : ∀ b j, ∃ r : ℝ, x b j = (r : EReal)) (hW : ∀ o k, ∃ r : ℝ, W o k = (r : EReal)) (hb : ∀ o, ∃ r : ℝ, bias o = (r : EReal))
    (b : Fin 2048) (o : Fin 256) : kernOut x W bias b o = refOut x W bias b o := by
  choose x' hx' using hx
  choose W' hW' using hW
  choose bias' hb' using hb
  have ex : x = cx x' := by funext b j; exact hx' b j
  have eW : W = cW W' := by funext o k; exact hW' o k
  have eb : bias = cb bias' := by funext o; exact hb' o
  rw [ex, eW, eb, kernOut_coe, refOut_coe, real_law]

end Cert.Spec

end
-- ==== Proof.Finite.lean ====
/-
  From the precondition — for each of the three argument arrays, the conjunction over all entries of
  |v| < +∞ is true — to: every entry of the rows, the weights and the bias is a real number (neither
  infinity of the extended reals).
-/
import proofs.«143003_j31550829756606_1_alg».proof.Defs
import proofs.«143003_j31550829756606_1_alg».proof.Proof.KIArgs
import proofs.«143003_j31550829756606_1_alg».proof.Proof.Gen.Pre_finite_inputs
import proofs.«143003_j31550829756606_1_alg».proof.Proof.Gen.KernelIdeal
import Idealize.ShloMosaic.Lib.ReduceAll
import Idealize.ShloMosaic.Lib.ValueIdx

noncomputable section

namespace Cert.Finite

open Idealize.ShloMosaic Idealize.ShloMosaic.TcCoe Idealize.SL.Sem
open Cert.KernelIdeal Cert.KIArgs

/-- The rank-0 shape has exactly one index. -/
instance : Subsingleton Cert.Pre_finite_inputs.S_.Idx := ⟨fun a b => funext fun d => d.elim0⟩

/-- The pattern 0x7F800000 (exponent all ones, significand zero, sign clear) denotes +∞. -/
theorem inf_bits : Ideal.ofBits .f32 0x7F800000#32 = (⊤ : EReal) := by
  simp [Ideal.ofBits, Ideal.ieee]

/-- An extended real whose absolute value max x (-x) lies strictly below +∞ is a real. -/
theorem real_of_abs_lt_top (x : EReal) (h : max x (-x) < ⊤) : ∃ r : ℝ, x = (r : EReal) := by
  induction x using EReal.rec with
  | bot => simp at h
  | coe r => exact ⟨r, rfl⟩
  | top => simp at h

/-- The comparison "|x| < +∞" read back from its one-bit result. -/
theorem real_of_cmp (x : EReal)
    (h : Ideal.cmp .olt (max x (-x)) (Ideal.ofBits .f32 0x7F800000#32) = 1#1) : ∃ r : ℝ, x = (r : EReal) := by
  rw [inf_bits] at h
  refine real_of_abs_lt_top x ?_
  by_contra hn
  simp [Ideal.cmp, hn] at h

/-- An array of any shape whose "all entries satisfy |v| < +∞" (a conjunction over every axis, from the
    constant true) is true has every entry real. -/
theorem all_real {s : Shape} {axes : List (Fin s.rank)}
    (bc : Cert.Pre_finite_inputs.S_.BroadcastsInDim s (![] : Fin 0 → Fin s.rank))
    (hr : s.ReducesTo axes Cert.Pre_finite_inputs.S_) (hS : 0 < Cert.Pre_finite_inputs.S_.numel)
    (v : FVec Ideal s .f32)
    (h : Host.reduce IntOp.andi
          (cmpf .olt (Host.absf v) (broadcastInDim s ![] bc (constant Cert.Pre_finite_inputs.S_ .f32 0x7F800000#32)))
          (constantI Cert.Pre_finite_inputs.S_ 1 1#1) hr hS ValueIdx.ix0 = 1#1)
    (i : s.Idx) : ∃ r : ℝ, v i = (r : EReal) :=
  real_of_cmp (v i) (Host.reduce_andi_all _ _ hr hS ValueIdx.ix0 h i)

variable [Cert.KernelIdeal.Facts] [Cert.Pre_finite_inputs.Facts]

/-- Under the precondition every entry of the rows, of the weights and of the bias is a real number. -/
theorem finite_of_pre (m : (ℓ : Loc nD τ sig) → Buf (Elt Ideal) ℓ) (h : Cert.Pre_KernelIdeal m) (c : Dev nD) :
    (∀ i, ∃ r : ℝ, xA m c i = (r : EReal)) ∧ (∀ i, ∃ r : ℝ, wA m c i = (r : EReal)) ∧ (∀ i, ∃ r : ℝ, bA m c i = (r : EReal)) := by
  have h0 := congrFun (h c) ValueIdx.ix0
  dsimp only [Cert.Pre_finite_inputs.fn] at h0
  obtain ⟨h01, h2⟩ := IntOp.andi_eq_one.1 h0
  obtain ⟨h0', h1⟩ := IntOp.andi_eq_one.1 h01
  exact ⟨fun i => all_real _ _ _ _ h0' i, fun i => all_real _ _ _ _ h1 i, fun i => all_real _ _ _ _ h2 i⟩

end Cert.Finite

end
-- ==== Proof.lean ====
/-
  The certificate of the cross-term layer: per batch row `b` and output `o`, with `a = (1, x b)` the row extended by a
  leading one,  y[b, o] = ∑_{p, q < 257} a p · a q · W[o, 257 p + q] + bias[o].

  The reference forms the 257 × 257 products and contracts them with the weight row in one matrix product. The kernel
  splits the square by whether `p`, `q` are zero: the corner joins the bias, the first row and column make a linear form in
  `x b`, and the inner 256 × 256 square makes a quadratic form that a 4 × 16 grid accumulates sixteen rows at a time in a
  buffer kept between grid points. Over the reals the two are the same sum regrouped; the regrouping uses distributivity,
  which holds because the precondition makes every input entry a real number.

  * The frames of the two kernel programs: the body's run at a grid point in each of its three control cases, the
    accumulator's contents carried from point to point, and the pipeline's frame run around it (Proof/KI, and its copy for
    the word-level program, Proof/K).
  * The frame of the reference: its run with the result dropped.
  * No rewrite was applied when the kernel was idealized, so there is nothing to preserve.
  * Equal results: the kernel's result array is the specification's kernel form at every entry (Proof/KIAcc, Proof/KIFinal),
    the reference's is its reference form (Proof/RefValue), the two forms agree on real inputs (Proof/SpecLaw, Proof/Finite),
    and both programs end with the same reshape.
-/
import proofs.«143003_j31550829756606_1_alg».proof.Defs
import proofs.«143003_j31550829756606_1_alg».proof.Proof.Gen.Kernel
import proofs.«143003_j31550829756606_1_alg».proof.Proof.Gen.KernelIdeal
import proofs.«143003_j31550829756606_1_alg».proof.Proof.Gen.ReferenceIdeal
import proofs.«143003_j31550829756606_1_alg».proof.Proof.Gen.Pre_finite_inputs
import proofs.«143003_j31550829756606_1_alg».proof.Proof.Gen.ReferenceIdeal.Run
import proofs.«143003_j31550829756606_1_alg».proof.Proof.Gen.ReferenceIdeal.Read
import proofs.«143003_j31550829756606_1_alg».proof.Proof.K.Dats
import proofs.«143003_j31550829756606_1_alg».proof.Proof.KI.Dats
import proofs.«143003_j31550829756606_1_alg».proof.Proof.KIFinal
import proofs.«143003_j31550829756606_1_alg».proof.Proof.RefValue
import proofs.«143003_j31550829756606_1_alg».proof.Proof.SpecLaw
import proofs.«143003_j31550829756606_1_alg».proof.Proof.Finite

noncomputable section

namespace Cert.Proof

open Idealize.ShloMosaic Idealize.ShloMosaic.TcCoe Idealize.SL.Sem Idealize.ShloMosaic.ValueIdx

/-- The word-level kernel program runs to the end and leaves its arguments unchanged. -/
theorem frame_k : Cert.frame_Kernel := fun m ρ _ => Cert.Proof.K.frame (F := Bits) m ρ

/-- So does the idealized kernel program. -/
theorem frame_ki : Cert.frame_KernelIdeal := fun m ρ _ => Cert.Proof.KI.frame (F := Ideal) m ρ

/-- The reference's frame is its run with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The reference's result before its last reshape is the kernel's, entry by entry: the reference form of the
    specification against its kernel form, equal because every entry of the inputs is a real number. -/
theorem ref_eq_G (m : (ℓ : Loc Cert.KernelIdeal.nD Cert.KernelIdeal.τ Cert.KernelIdeal.sig) → Buf (Elt Ideal) ℓ)
    (hpre : Cert.Pre_KernelIdeal m) (c : Dev Cert.KernelIdeal.nD) :
    Cert.ReferenceIdeal.Read.val_main_v12 (F := Ideal) (Cert.KIArgs.xA m c) (Cert.KIArgs.wA m c) (Cert.KIArgs.bA m c) = Cert.KIFinal.G m c := by
  obtain ⟨hx, hW, hb⟩ := Cert.Finite.finite_of_pre m hpre c
  funext i
  obtain ⟨b, o, rfl⟩ : ∃ (b : Fin 2048) (o : Fin 256), i = ix2 b o := ⟨i 0, i 1, eq_ix2 i⟩
  rw [Cert.RefValue.ref_apply]
  exact (Cert.Spec.kernOut_eq_refOut (Cert.KIAcc.xS m c) (Cert.KIAcc.wS m c) (Cert.KIAcc.bS m c)
    (fun b j => hx (ix2 b j)) (fun o k => hW (ix2 o k)) (fun o => hb (ix1 o)) b o).symm

/-- From memories agreeing on the arguments, the two idealized programs end with equal results. -/
theorem algebraic : Cert.algebraic_KernelIdeal_ReferenceIdeal := by
  intro m ρ m' ρ' hpre hagree
  refine ⟨fun c => shapeCast Cert.KernelIdeal.S2048x16x16 (Cert.KIFinal.G m c) Cert.KernelIdeal.Facts₀.shapeCasts_S2048x256_S2048x16x16,
    Cert.KIFinal.run_value m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2]
  exact congrArg (fun z => shapeCast Cert.KernelIdeal.S2048x16x16 z Cert.KernelIdeal.Facts₀.shapeCasts_S2048x256_S2048x16x16)
    (ref_eq_G m hpre c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
